-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x256 : Shape := ⟨2, ![128, 256]⟩
abbrev S256 : Shape := ⟨1, ![256]⟩
abbrev S256x40 : Shape := ⟨2, ![256, 40]⟩
abbrev S40 : Shape := ⟨1, ![40]⟩
abbrev S_ : Shape := ⟨0, ![]⟩
abbrev S1x800000 : Shape := ⟨2, ![1, 800000]⟩
abbrev S800000 : Shape := ⟨1, ![800000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S2x800000 32) (main_v33 : IVec S_ 1) : IVec S_ 1 :=
  let main_v34 : IVec S1x800000 32 := (extractStridedSlice S1x800000 ![0, 0] · slices_S2x800000_S1x800000_0_0) main_arg1
  let main_v35 : IVec S800000 32 := shapeCast S800000 main_v34 shapeCasts_S1x800000_S800000
  let main_c_12 : IVec S_ 32 := constantI S_ 32 4294867296#32
  let main_v36 : IVec S800000 32 := broadcastInDim S800000 ![] bcast_S_S800000 main_c_12
  let main_v37 : IVec S800000 1 := cmpi .sge main_v35 main_v36
  let main_v38 : IVec S1x800000 32 := (extractStridedSlice S1x800000 ![0, 0] · slices_S2x800000_S1x800000_0_0) main_arg1
  let main_v39 : IVec S800000 32 := shapeCast S800000 main_v38 shapeCasts_S1x800000_S800000
  let main_c_13 : IVec S_ 32 := constantI S_ 32 100000#32
  let main_v40 : IVec S800000 32 := broadcastInDim S800000 ![] bcast_S_S800000 main_c_13
  let main_v41 : IVec S800000 1 := cmpi .slt main_v39 main_v40
  let main_v42 : IVec S800000 1 := andi main_v37 main_v41
  let main_c_14 : IVec S_ 1 := constantI S_ 1 1#1
  let main_v43 : IVec S_ 1 := (fun x v => Host.reduce IntOp.andi x v reducesTo_S800000_S_d0 h_S_) main_v42 main_c_14
  let main_v44 : IVec S_ 1 := andi main_v33 main_v43
  main_v44

def fn_part1 {F : FTy → Type} [FloatOps F] (main_arg1 : IVec S2x800000 32) (main_arg5 : FVec F S256x40 .f32) (main_arg6 : FVec F S40 .f32) (main_arg7 : FVec F S256x40 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256x40 .f32 := Host.absf main_arg5
  let main_cst_6 : FVec F S_ .f32 := constant S_ .f32 0x7F800000#32
  let main_v20 : FVec F S256x40 .f32 := broadcastInDim S256x40 ![] bcast_S_S256x40 main_cst_6
  let main_v21 : IVec S256x40 1 := cmpf .olt main_v19 main_v20
  let main_c_7 : IVec S_ 1 := constantI S_ 1 1#1
  let main_v22 : IVec S_ 1 := (fun x v => Host.reduce IntOp.andi x v reducesTo_S256x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S256x40 .f32 := Host.absf main_arg7
  let main_cst_10 : FVec F S_ .f32 := constant S_ .f32 0x7F800000#32
  let main_v30 : FVec F S256x40 .f32 := broadcastInDim S256x40 ![] bcast_S_S256x40 main_cst_10
  let main_v31 : IVec S256x40 1 := cmpf .olt main_v29 main_v30
  let main_c_11 : IVec S_ 1 := constantI S_ 1 1#1
  let main_v32 : IVec S_ 1 := (fun x v => Host.reduce IntOp.andi x v reducesTo_S256x40_S_d0_1 h_S_) main_v31 main_c_11
  let main_v33 : IVec S_ 1 := andi main_v28 main_v32
  fn_part2 (F := F) main_arg1 main_v33

def fn {F : FTy → Type} [FloatOps F] (main_arg0 : FVec F S100000x128 .f32) (main_arg1 : IVec S2x800000 32) (main_arg2 : FVec F S128x256 .f32) (main_arg3 : FVec F S256 .f32) (main_arg4 : FVec F S128x256 .f32) (main_arg5 : FVec F S256x40 .f32) (main_arg6 : FVec F S40 .f32) (main_arg7 : FVec F S256x40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg1 main_arg5 main_arg6 main_arg7 main_v13 main_v16
-- ==== Kernel.lean ====
abbrev S100000x128 : Shape := ⟨2, ![100000, 128]⟩
abbrev S2x800000 : Shape := ⟨2, ![2, 800000]⟩
abbrev S128x256 : Shape := ⟨2, ![128, 256]⟩
abbrev S256 : Shape := ⟨1, ![256]⟩
abbrev S256x40 : Shape := ⟨2, ![256, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S1 : Shape := ⟨1, ![1]⟩
abbrev S1x1 : Shape := ⟨2, ![1, 1]⟩
abbrev S800000x128 : Shape := ⟨2, ![800000, 128]⟩
abbrev S1x256 : Shape := ⟨2, ![1, 256]⟩
abbrev S100000x256 : Shape := ⟨2, ![100000, 256]⟩
abbrev S4000x128 : Shape := ⟨2, ![4000, 128]⟩
abbrev S4000x1 : Shape := ⟨2, ![4000, 1]⟩
abbrev S4000x256 : Shape := ⟨2, ![4000, 256]⟩
abbrev S800000x256 : Shape := ⟨2, ![800000, 256]⟩
abbrev S1x40 : Shape := ⟨2, ![1, 40]⟩
abbrev S100000x40 : Shape := ⟨2, ![100000, 40]⟩
abbrev S4000x40 : Shape := ⟨2, ![4000, 40]⟩

abbrev nBuf : Space → Nat
  | .hbm => 77
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x40, .f32⟩
  | .hbm, ⟨6, _⟩ => ⟨S40, .f32⟩
  | .hbm, ⟨7, _⟩ => ⟨S256x40, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S100000, .f32⟩
  | .hbm, ⟨16, _⟩ => ⟨S800000x1, .i32⟩
  | .hbm, ⟨17, _⟩ => ⟨S100000, .f32⟩
  | .hbm, ⟨18, _⟩ => ⟨S100000x1, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S1, .i32⟩
  | .hbm, ⟨28, _⟩ => ⟨S_, .i32⟩
  | .hbm, ⟨29, _⟩ => ⟨S800000x1, .i32⟩
  | .hbm, ⟨30, _⟩ => ⟨S800000x1, .i1⟩
  | .hbm, ⟨31, _⟩ => ⟨S1x1, .i32⟩
  | .hbm, ⟨32, _⟩ => ⟨S800000x1, .i32⟩
  | .hbm, ⟨33, _⟩ => ⟨S800000x1, .i1⟩
  | .hbm, ⟨34, _⟩ => ⟨S800000x1, .i1⟩
  | .hbm, ⟨35, _⟩ => ⟨S_, .i1⟩
  | .hbm, ⟨36, _⟩ => ⟨S800000, .i1⟩
  | .hbm, ⟨37, _⟩ => ⟨S800000x128, .f32⟩
  | .hbm, ⟨38, _⟩ => ⟨S800000x128, .i1⟩
  | .hbm, ⟨39, _⟩ => ⟨S_, .f32⟩
  | .hbm, ⟨40, _⟩ => ⟨S800000x128, .f32⟩
  | .hbm, ⟨41, _⟩ => ⟨S800000x128, .f32⟩
  | .hbm, ⟨42, _⟩ => ⟨S_, .f32⟩
  | .hbm, ⟨43, _⟩ => ⟨S100000x128, .f32⟩
  | .hbm, ⟨44, _⟩ => ⟨S800000x1, .i32⟩
  | .hbm, ⟨45, _⟩ => ⟨S100000x128, .f32⟩
  | .hbm, ⟨46, _⟩ => ⟨S1x256, .f32⟩
  | .hbm, ⟨47, _⟩ => ⟨S100000x256, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S1, .i32⟩
  | .hbm, ⟨57, _⟩ => ⟨S_, .i32⟩
  | .hbm, ⟨58, _⟩ => ⟨S800000x1, .i32⟩
  | .hbm, ⟨59, _⟩ => ⟨S800000x1, .i1⟩
  | .hbm, ⟨60, _⟩ => ⟨S1x1, .i32⟩
  | .hbm, ⟨61, _⟩ => ⟨S800000x1, .i32⟩
  | .hbm, ⟨62, _⟩ => ⟨S800000x1, .i1⟩
  | .hbm, ⟨63, _⟩ => ⟨S800000x1, .i1⟩
  | .hbm, ⟨64, _⟩ => ⟨S_, .i1⟩
  | .hbm, ⟨65, _⟩ => ⟨S800000, .i1⟩
  | .hbm, ⟨66, _⟩ => ⟨S800000x256, .f32⟩
  | .hbm, ⟨67, _⟩ => ⟨S800000x256, .i1⟩
  | .hbm, ⟨68, _⟩ => ⟨S_, .f32⟩
  | .hbm, ⟨69, _⟩ => ⟨S800000x256, .f32⟩
  | .hbm, ⟨70, _⟩ => ⟨S800000x256, .f32⟩
  | .hbm, ⟨71, _⟩ => ⟨S_, .f32⟩
  | .hbm, ⟨72, _⟩ => ⟨S100000x256, .f32⟩
  | .hbm, ⟨73, _⟩ => ⟨S800000x1, .i32⟩
  | .hbm, ⟨74, _⟩ => ⟨S100000x256, .f32⟩
  | .hbm, ⟨75, _⟩ => ⟨S1x40, .f32⟩
  | .hbm, ⟨76, _⟩ => ⟨S100000x40, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x256, .f32⟩
  | .local _ .vmem, ⟨7, _⟩ => ⟨S128x256, .f32⟩
  | .local _ .vmem, ⟨8, _⟩ => ⟨S1x256, .f32⟩
  | .local _ .vmem, ⟨9, _⟩ => ⟨S4000x256, .f32⟩
  | .local _ .vmem, ⟨10, _⟩ => ⟨S4000x256, .f32⟩
  | .local _ .vmem, ⟨11, _⟩ => ⟨S4000x256, .f32⟩
  | .local _ .vmem, ⟨12, _⟩ => ⟨S4000x256, .f32⟩
  | .local _ .vmem, ⟨13, _⟩ => ⟨S4000x256, .f32⟩
  | .local _ .vmem, ⟨14, _⟩ => ⟨S4000x256, .f32⟩
  | .local _ .vmem, ⟨15, _⟩ => ⟨S4000x1, .f32⟩
  | .local _ .vmem, ⟨16, _⟩ => ⟨S4000x1, .f32⟩
  | .local _ .vmem, ⟨17, _⟩ => ⟨S256x40, .f32⟩
  | .local _ .vmem, ⟨18, _⟩ => ⟨S256x40, .f32⟩
  | .local _ .vmem, ⟨19, _⟩ => ⟨S1x40, .f32⟩
  | .local _ .vmem, ⟨20, _⟩ => ⟨S4000x40, .f32⟩
  | .local _ .vmem, ⟨21, _⟩ => ⟨S4000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v9 : Ref sig .tc := ⟨.hbm, 41, rfl⟩
abbrev main_cst_1 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_c_1 : Ref sig .tc := ⟨.hbm, 56, rfl⟩
abbrev main_call1_c_2 : Ref sig .tc := ⟨.hbm, 57, rfl⟩
abbrev main_call1_v6 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_3 : Ref sig .tc := ⟨.hbm, 64, rfl⟩
abbrev main_call1_v12 : Ref sig .tc := ⟨.hbm, 65, rfl⟩
abbrev main_call1_v13 : Ref sig .tc := ⟨.hbm, 66, rfl⟩
abbrev main_call1_v14 : Ref sig .tc := ⟨.hbm, 67, rfl⟩
abbrev main_call1_cst : Ref sig .tc := ⟨.hbm, 68, rfl⟩
abbrev main_call1_v15 : Ref sig .tc := ⟨.hbm, 69, rfl⟩
abbrev main_v15 : Ref sig .tc := ⟨.hbm, 70, rfl⟩
abbrev main_cst_2 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x40 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x40 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  shapeCasts_S100000_S100000x1 : S100000.ShapeCasts S100000x1
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S100000x128 : S_.BroadcastsInDim S100000x128 (![] : Fin 0 → Fin S100000x128.rank)
  shapeCasts_S256_S1x256 : S256.ShapeCasts S1x256
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S4000x1_S4000x128 : S4000x1.Broadcasts S4000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  bcast_S800000_S800000x256_0 : S800000.BroadcastsInDim S800000x256 (![0] : Fin 1 → Fin S800000x256.rank)
  bcast_S_S800000x256 : S_.BroadcastsInDim S800000x256 (![] : Fin 0 → Fin S800000x256.rank)
  bcast_S_S100000x256 : S_.BroadcastsInDim S100000x256 (![] : Fin 0 → Fin S100000x256.rank)
  shapeCasts_S40_S1x40 : S40.ShapeCasts S1x40
  shapeCasts_S4000x256_S4000x256 : S4000x256.ShapeCasts S4000x256
  broadcasts_S4000x1_S4000x256 : S4000x1.Broadcasts S4000x256
  inb_S256x40_S256x40_0_0 : ∀ a, (![0, 0] : Fin 2 → Nat) a + S256x40.size a ≤ S256x40.size a
  h_S256x40 : 0 < S256x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  inb_S4000x40_S4000x40_0_0 : ∀ a, (![0, 0] : Fin 2 → Nat) a + S4000x40.size a ≤ S4000x40.size a
  h_S4000x40 : 0 < S4000x40.numel
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S4000x128_S128x256_S4000x256_1_0_0_1_n_n_wf : DotDims.WF S4000x128 S128x256 S4000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S4000x256_S256x40_S4000x40_1_0_0_1_n_n_wf : DotDims.WF S4000x256 S256x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x256.size a ≤ S100000x256.size a
  hwx0_6 : ∀ i : grid0.Coords, EltTy.bits .f32 = 32 ∨ (Rect.block (s := S100000x256) S4000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S100000x256.size a
  hwx1_0 : ∀ i : grid1.Coords, EltTy.bits .f32 = 32 ∨ (Rect.block (s := S100000x256) S4000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x256.size a ≤ S100000x256.size a
  hwx1_1 : ∀ i : grid1.Coords, EltTy.bits .f32 = 32 ∨ (Rect.block (s := S100000x256) S4000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x40.size a ≤ S256x40.size a
  hwx1_3 : ∀ i : grid1.Coords, EltTy.bits .f32 = 32 ∨ (Rect.block (s := S256x40) S256x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x40.size a ≤ S256x40.size a
  hwx1_4 : ∀ i : grid1.Coords, EltTy.bits .f32 = 32 ∨ (Rect.block (s := S256x40) S256x40.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x40.size a ≤ S1x40.size a
  hwx1_5 : ∀ i : grid1.Coords, EltTy.bits .f32 = 32 ∨ (Rect.block (s := S1x40) S1x40.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x40.size a ≤ S100000x40.size a
  hwx1_6 : ∀ i : grid1.Coords, EltTy.bits .f32 = 32 ∨ (Rect.block (s := S100000x40) S4000x40.size (cc1_transform_6 i) (hinb1_6 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S4000x256_S256x40_S4000x40_1_0_0_1_n_n : DotDims S4000x256 S256x40 S4000x40 where
  lhsContracting := [1]
  rhsContracting := [0]
  lhsNonContracting := [0]
  rhsNonContracting := [1]
  lhsBatch := []
  rhsBatch := []
  wf := dot_S4000x256_S256x40_S4000x40_1_0_0_1_n_n_wf

abbrev win0_0 : Pipeline.Window sig grid0 :=
  Pipeline.Window.ofSpec (Memref.whole main_v12) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S4000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v18) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S4000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S1x40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S4000x40.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x256 : Shape := ⟨2, ![128, 256]⟩
abbrev S256 : Shape := ⟨1, ![256]⟩
abbrev S256x40 : Shape := ⟨2, ![256, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩
abbrev S800000x256 : Shape := ⟨2, ![800000, 256]⟩
abbrev S100000x40 : Shape := ⟨2, ![100000, 40]⟩
abbrev S1x40 : Shape := ⟨2, ![1, 40]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S128x256, .f32⟩
  | .hbm, ⟨5, _⟩ => ⟨S256x40, .f32⟩
  | .hbm, ⟨6, _⟩ => ⟨S40, .f32⟩
  | .hbm, ⟨7, _⟩ => ⟨S256x40, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S100000x128, .f32⟩
  | .hbm, ⟨23, _⟩ => ⟨S800000x1, .i32⟩
  | .hbm, ⟨24, _⟩ => ⟨S100000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S100000, .f32⟩
  | .hbm, ⟨29, _⟩ => ⟨S800000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x256, .f32⟩
  | .hbm, ⟨38, _⟩ => ⟨S1x256, .f32⟩
  | .hbm, ⟨39, _⟩ => ⟨S100000x256, .f32⟩
  | .hbm, ⟨40, _⟩ => ⟨S100000x256, .f32⟩
  | .hbm, ⟨41, _⟩ => ⟨S100000x256, .f32⟩
  | .hbm, ⟨42, _⟩ => ⟨S100000x256, .f32⟩
  | .hbm, ⟨43, _⟩ => ⟨S_, .f32⟩
  | .hbm, ⟨44, _⟩ => ⟨S100000x256, .f32⟩
  | .hbm, ⟨45, _⟩ => ⟨S100000x256, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x256, .f32⟩
  | .hbm, ⟨55, _⟩ => ⟨S_, .f32⟩
  | .hbm, ⟨56, _⟩ => ⟨S100000x256, .f32⟩
  | .hbm, ⟨57, _⟩ => ⟨S800000x1, .i32⟩
  | .hbm, ⟨58, _⟩ => ⟨S100000x256, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S100000, .f32⟩
  | .hbm, ⟨63, _⟩ => ⟨S800000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x256, .f32⟩
  | .hbm, ⟨70, _⟩ => ⟨S100000x256, .f32⟩
  | .hbm, ⟨71, _⟩ => ⟨S100000x40, .f32⟩
  | .hbm, ⟨72, _⟩ => ⟨S1x40, .f32⟩
  | .hbm, ⟨73, _⟩ => ⟨S100000x40, .f32⟩
  | .hbm, ⟨74, _⟩ => ⟨S100000x40, .f32⟩
  | .hbm, ⟨75, _⟩ => ⟨S100000x40, .f32⟩
  | .hbm, ⟨76, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S128x256_S100000x256_1_0_0_1_n_n_wf : DotDims.WF S100000x128 S128x256 S100000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S100000x256_S256x40_S100000x40_1_0_0_1_n_n_wf : DotDims.WF S100000x256 S256x40 S100000x40 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S100000x256_S256x40_S100000x40_1_0_0_1_n_n : DotDims S100000x256 S256x40 S100000x40 where
  lhsContracting := [1]
  rhsContracting := [0]
  lhsNonContracting := [0]
  rhsNonContracting := [1]
  lhsBatch := []
  rhsBatch := []
  wf := dot_S100000x256_S256x40_S100000x40_1_0_0_1_n_n_wf

class Facts : Prop extends Facts₀ where

variable [Facts]
-- ==== Proof.LibSageLayer.lean ====
/-
  One mean-aggregating graph-convolution layer, entry by entry, on the extended reals.

  For a node `r` and an output feature `j` the layer's value is

      ( Σ_k (agg[r,k] / max(cnt[r], 1)) · wl[k,j]  +  Σ_k x[r,k] · wr[k,j] )  +  b[j]

  where `agg` holds the summed neighbour features of each node, `cnt` the number of its incoming edges (kept as a
  column, one entry per node), `x` the node's own features, `wl` and `wr` the two weight matrices and `b` the bias
  (kept as a row). The quotient is the extended reals' division of the ideal instance, the literal `1` the
  extended real its float word denotes. `relu` is the maximum with the float zero word's value.

  The only algebra a comparison of two arrangements of this value needs is that addition on the extended reals is
  commutative and associative: `(a + c) + b = (a + b) + c`, which holds at the infinities too.
-/
import Idealize.ShloMosaic.PureOps.Ideal
import Idealize.ShloMosaic.Lib.ValueIdx

noncomputable section

namespace Cert.LibSageLayer

open Idealize.ShloMosaic Idealize.ShloMosaic.ValueIdx

/-- The float word of `1.0`, as the extended real it denotes. -/
abbrev one : EReal := Ideal.ofBits .f32 0x3F800000#32
/-- The float word of `0.0`, as the extended real it denotes. -/
abbrev zero : EReal := Ideal.ofBits .f32 0x00000000#32

/-- The layer's value at node `i 0`, feature `i 1`: the mean of the neighbours' features through `wl`, the node's own
    features through `wr`, and the bias. -/
def layer {n d h : ℕ} (agg x : (⟨2, ![n, d]⟩ : Shape).Idx → EReal) (cnt : (⟨2, ![n, 1]⟩ : Shape).Idx → EReal)
    (wl wr : (⟨2, ![d, h]⟩ : Shape).Idx → EReal) (b : (⟨2, ![1, h]⟩ : Shape).Idx → EReal) :
    (⟨2, ![n, h]⟩ : Shape).Idx → EReal :=
  fun i => ((∑ k : Fin d, Ideal.div (agg (ix2 (i 0) k)) (max (cnt (ix2 (i 0) (0 : Fin 1))) one) * wl (ix2 k (i 1)))
      + ∑ k : Fin d, x (ix2 (i 0) k) * wr (ix2 k (i 1))) + b (ix2 (0 : Fin 1) (i 1))

/-- The rectifier, entry by entry. -/
def relu {s : Shape} (v : s.Idx → EReal) : s.Idx → EReal := fun i => max (v i) zero

/-- The layer read at explicit coordinates. -/
theorem layer_apply {n d h : ℕ} (agg x : (⟨2, ![n, d]⟩ : Shape).Idx → EReal) (cnt : (⟨2, ![n, 1]⟩ : Shape).Idx → EReal)
    (wl wr : (⟨2, ![d, h]⟩ : Shape).Idx → EReal) (b : (⟨2, ![1, h]⟩ : Shape).Idx → EReal) (p : Fin n) (q : Fin h) :
    layer agg x cnt wl wr b (ix2 p q)
      = ((∑ k : Fin d, Ideal.div (agg (ix2 p k)) (max (cnt (ix2 p (0 : Fin 1))) one) * wl (ix2 k q))
          + ∑ k : Fin d, x (ix2 p k) * wr (ix2 k q)) + b (ix2 (0 : Fin 1) q) := rfl

/-- The other arrangement of the three summands: bias before the node's own term. -/
theorem add_bias_middle (a b c : EReal) : (a + b) + c = (a + c) + b := add_right_comm a b c

end Cert.LibSageLayer

end
-- ==== Proof.Region0.lean ====
/-
  The first layer's pallas_call, from blocks to the whole array.

  The grid has 25 points; point `t` reads rows `4000·t … 4000·t + 3999` of the neighbour sums, of the node features and
  of the count column, the two weight matrices and the bias row whole, and writes rows `4000·t … 4000·t + 3999` of
  the output. Since a row of the layer's value depends only on the same row of the row-tiled inputs, what point `t`
  writes back is block `t` of ONE whole-array function of the arrays as the region finds them — the rectified layer —
  and the 25 blocks tile the output: the array ends holding that function.
-/
import proofs.«408753_j14044543058087_1_alg».proof.Proof.Gen.KernelIdeal.Frame
import proofs.«408753_j14044543058087_1_alg».proof.Proof.LibSageLayer
import Idealize.ShloMosaic.Lib.Pipeline.Value
import Idealize.ShloMosaic.Lib.ValueIdx

set_option maxRecDepth 16384

noncomputable section

namespace Cert.KernelIdeal.Region0

open Cert.KernelIdeal Cert.KernelIdeal.Gen Cert.LibSageLayer
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows sit at block row `t`, the whole ones at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The neighbour-sum block at point `t` is rows `4000·t …` of the array. -/
theorem blk0_apply (c : Dev nD) (t : Fin cfg0.N) (y : S4000x128.Idx) (k : S100000x128.Idx)
    (hk0 : (k 0).val = t.val * 4000 + (y 0).val) (hk1 : (k 1).val = (y 1).val) :
    (iblk0 V c 0 t : Vec Ideal S4000x128 .f32) y = (V c main_v12 : S100000x128.Idx → EReal) k := by
  obtain ⟨e0, e1, -⟩ := idx_facts t
  unfold iblk0
  rw [View.read_apply]
  show V c main_v12 _ = V c main_v12 _
  congr 1
  funext a
  apply Fin.ext
  match a with
  | ⟨0, _⟩ => show win0_0.index t 0 * 4000 + 1 * (y 0).val = (k 0).val; rw [e0, hk0]; omega
  | ⟨1, _⟩ => show win0_0.index t 1 * 128 + 1 * (y 1).val = (k 1).val; rw [e1, hk1]; omega

/-- The node-feature block at point `t` is rows `4000·t …` of the array. -/
theorem blk1_apply (c : Dev nD) (t : Fin cfg0.N) (y : S4000x128.Idx) (k : S100000x128.Idx)
    (hk0 : (k 0).val = t.val * 4000 + (y 0).val) (hk1 : (k 1).val = (y 1).val) :
    (iblk0 V c 1 t : Vec Ideal S4000x128 .f32) y = (V c main_arg0 : S100000x128.Idx → EReal) k := by
  obtain ⟨-, -, e0, e1, -⟩ := idx_facts t
  unfold iblk0
  rw [View.read_apply]
  show V c main_arg0 _ = V c main_arg0 _
  congr 1
  funext a
  apply Fin.ext
  match a with
  | ⟨0, _⟩ => show win0_1.index t 0 * 4000 + 1 * (y 0).val = (k 0).val; rw [e0, hk0]; omega
  | ⟨1, _⟩ => show win0_1.index t 1 * 128 + 1 * (y 1).val = (k 1).val; rw [e1, hk1]; omega

/-- The count block at point `t` is rows `4000·t …` of the count column. -/
theorem blk2_apply (c : Dev nD) (t : Fin cfg0.N) (y : S4000x1.Idx) (k : S100000x1.Idx)
    (hk0 : (k 0).val = t.val * 4000 + (y 0).val) (hk1 : (k 1).val = (y 1).val) :
    (iblk0 V c 2 t : Vec Ideal S4000x1 .f32) y = (V c main_v8 : S100000x1.Idx → EReal) k := by
  obtain ⟨-, -, -, -, e0, e1, -⟩ := idx_facts t
  unfold iblk0
  rw [View.read_apply]
  show V c main_v8 _ = V c main_v8 _
  congr 1
  funext a
  apply Fin.ext
  match a with
  | ⟨0, _⟩ => show win0_2.index t 0 * 4000 + 1 * (y 0).val = (k 0).val; rw [e0, hk0]; omega
  | ⟨1, _⟩ => show win0_2.index t 1 * 1 + 1 * (y 1).val = (k 1).val; rw [e1, hk1]; omega

/-- The first weight matrix is read whole at every point. -/
theorem blk3_eq (c : Dev nD) (t : Fin cfg0.N) :
    (iblk0 V c 3 t : Vec Ideal S128x256 .f32) = (V c main_arg2 : S128x256.Idx → EReal) := by
  obtain ⟨-, -, -, -, -, -, e0, e1, -⟩ := idx_facts t
  funext y
  unfold iblk0
  rw [View.read_apply]
  show V c main_arg2 _ = V c main_arg2 _
  congr 1
  funext a
  apply Fin.ext
  match a with
  | ⟨0, _⟩ => show win0_3.index t 0 * 128 + 1 * (y 0).val = (y 0).val; rw [e0]; omega
  | ⟨1, _⟩ => show win0_3.index t 1 * 256 + 1 * (y 1).val = (y 1).val; rw [e1]; omega

/-- The second weight matrix is read whole at every point. -/
theorem blk4_eq (c : Dev nD) (t : Fin cfg0.N) :
    (iblk0 V c 4 t : Vec Ideal S128x256 .f32) = (V c main_arg4 : S128x256.Idx → EReal) := by
  obtain ⟨-, -, -, -, -, -, -, -, e0, e1, -⟩ := idx_facts t
  funext y
  unfold iblk0
  rw [View.read_apply]
  show V c main_arg4 _ = V c main_arg4 _
  congr 1
  funext a
  apply Fin.ext
  match a with
  | ⟨0, _⟩ => show win0_4.index t 0 * 128 + 1 * (y 0).val = (y 0).val; rw [e0]; omega
  | ⟨1, _⟩ => show win0_4.index t 1 * 256 + 1 * (y 1).val = (y 1).val; rw [e1]; omega

/-- The bias row is read whole at every point. -/
theorem blk5_eq (c : Dev nD) (t : Fin cfg0.N) :
    (iblk0 V c 5 t : Vec Ideal S1x256 .f32) = (V c main_v13 : S1x256.Idx → EReal) := by
  obtain ⟨-, -, -, -, -, -, -, -, -, -, e0, e1, -⟩ := idx_facts t
  funext y
  unfold iblk0
  rw [View.read_apply]
  show V c main_v13 _ = V c main_v13 _
  congr 1
  funext a
  apply Fin.ext
  match a with
  | ⟨0, _⟩ => show win0_5.index t 0 * 1 + 1 * (y 0).val = (y 0).val; rw [e0]; omega
  | ⟨1, _⟩ => show win0_5.index t 1 * 256 + 1 * (y 1).val = (y 1).val; rw [e1]; omega

/-- A row of the layer depends only on the same row of the row-tiled inputs: if three blocks are rows `4000·T …` of
    three arrays, the layer of the blocks at `(p, q)` is the layer of the arrays at `(4000·T + p, q)`. -/
theorem layer_rows (x0 x1 : S4000x128.Idx → EReal) (x2 : S4000x1.Idx → EReal) (wl wr : S128x256.Idx → EReal) (b : S1x256.Idx → EReal)
    (agg x : S100000x128.Idx → EReal) (cnt : S100000x1.Idx → EReal) (T : ℕ) (y : S4000x256.Idx) (i : S100000x256.Idx)
    (hi0 : (i 0).val = T * 4000 + (y 0).val) (hi1 : (i 1).val = (y 1).val)
    (h0 : ∀ (y' : S4000x128.Idx) (k : S100000x128.Idx), (k 0).val = T * 4000 + (y' 0).val → (k 1).val = (y' 1).val → x0 y' = agg k)
    (h1 : ∀ (y' : S4000x128.Idx) (k : S100000x128.Idx), (k 0).val = T * 4000 + (y' 0).val → (k 1).val = (y' 1).val → x1 y' = x k)
    (h2 : ∀ (y' : S4000x1.Idx) (k : S100000x1.Idx), (k 0).val = T * 4000 + (y' 0).val → (k 1).val = (y' 1).val → x2 y' = cnt k) :
    relu (layer (n := 4000) (d := 128) (h := 256) x0 x1 x2 wl wr b) y
      = relu (layer (n := 100000) (d := 128) (h := 256) agg x cnt wl wr b) i := by
  obtain ⟨p, q, rfl⟩ : ∃ (p : Fin 4000) (q : Fin 256), y = ix2 p q := ⟨y 0, y 1, eq_ix2 y⟩
  obtain ⟨r, q', rfl⟩ : ∃ (r : Fin 100000) (q' : Fin 256), i = ix2 r q' := ⟨i 0, i 1, eq_ix2 i⟩
  have hq : q' = q := Fin.ext hi1
  subst hq
  have hr : r.val = T * 4000 + p.val := hi0
  unfold relu
  rw [layer_apply, layer_apply]
  have e2 : x2 (ix2 p (0 : Fin 1)) = cnt (ix2 r (0 : Fin 1)) := h2 _ _ hr rfl
  have e0 : ∀ k : Fin 128, x0 (ix2 p k) = agg (ix2 r k) := fun k => h0 _ _ hr rfl
  have e1 : ∀ k : Fin 128, x1 (ix2 p k) = x (ix2 r k) := fun k => h1 _ _ hr rfl
  simp only [e0, e1, e2]

/-- The whole-array function the region's output ends at: the rectified layer of the arrays as the region finds them. -/
abbrev G (c : Dev nD) : S100000x256.Idx → EReal :=
  relu (layer (n := 100000) (d := 128) (h := 256) (V c main_v12) (V c main_arg0) (V c main_v8) (V c main_arg2) (V c main_arg4) (V c main_v13))

/-- What point `t` writes back is block `t` of `G`, given that the body's arithmetic is the rectified layer of its blocks. -/
theorem flushed_eq
    (hpay : ∀ (cnt : Vec Ideal S4000x1 .f32) (agg x : Vec Ideal S4000x128 .f32) (wl wr : Vec Ideal S128x256 .f32) (b : Vec Ideal S1x256 .f32),
      k0_pay1 (F := Ideal) cnt agg x wl wr b = relu (layer (n := 4000) (d := 128) (h := 256) agg x cnt wl wr b))
    (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S4000x128) hz, View.ld_unit_zero (S := S4000x1) hz, View.ld_unit_zero (S := S128x256) hz,
    View.ld_unit_zero (S := S1x256) hz]
  rw [hpay, blk3_eq V c t, blk4_eq V c t, blk5_eq V c t]
  obtain ⟨-, -, -, -, -, -, -, -, -, -, -, -, e0, e1⟩ := idx_facts t
  funext j
  show relu (layer (n := 4000) (d := 128) (h := 256) (iblk0 V c 0 t) (iblk0 V c 1 t) (iblk0 V c 2 t) (V c main_arg2) (V c main_arg4) (V c main_v13)) j
    = G V c (((cfg0.win 6).blk t).view.emb j)
  exact layer_rows (iblk0 V c 0 t) (iblk0 V c 1 t) (iblk0 V c 2 t) (V c main_arg2) (V c main_arg4) (V c main_v13)
    (V c main_v12) (V c main_arg0) (V c main_v8) t.val j (((cfg0.win 6).blk t).view.emb j)
    (by show win0_6.index t 0 * 4000 + 1 * (j 0).val = t.val * 4000 + (j 0).val; rw [e0]; omega)
    (by show win0_6.index t 1 * 256 + 1 * (j 1).val = (j 1).val; rw [e1]; omega)
    (fun y' k hk0 hk1 => blk0_apply V c t y' k hk0 hk1)
    (fun y' k hk0 hk1 => blk1_apply V c t y' k hk0 hk1)
    (fun y' k hk0 hk1 => blk2_apply V c t y' k hk0 hk1)

/-- An index of the output array is in point `t`'s block iff each coordinate is in the block's range on its axis. -/
theorem mem_blk (t : Fin cfg0.N) (i : S100000x256.Idx) :
    i ∈ ((cfg0.win 6).blk t).view.set ↔ ∀ a : Fin 2, win0_6.index t a * S4000x256.size a ≤ (i a).val ∧ (i a).val < win0_6.index t a * S4000x256.size a + S4000x256.size a := by
  show i ∈ ((View.whole main_v14).slice (win0_6.rect t)).set ↔ _
  rw [View.set_slice_whole, Rect.mem_set_unit]
  exact Iff.rfl

/-- Every row of the output lies in the block of the point `row / 4000`. -/
theorem cover (i : S100000x256.Idx) : ∃ t : Fin cfg0.N, (cfg0.win 6).flush t = true ∧ i ∈ ((cfg0.win 6).blk t).view.set := by
  have hi0 : (i 0).val < 100000 := (i 0).isLt
  have hi1 : (i 1).val < 256 := (i 1).isLt
  have hN : cfg0.N = 25 := N_0
  let t : Fin cfg0.N := ⟨(i 0).val / 4000, by rw [hN]; omega⟩
  obtain ⟨-, -, -, -, -, -, -, -, -, -, -, -, e0, e1⟩ := idx_facts t
  have ht : t.val = (i 0).val / 4000 := rfl
  refine ⟨t, flush0_6 t, ?_⟩
  rw [mem_blk]
  intro a
  match a with
  | ⟨0, _⟩ => show win0_6.index t (0 : Fin 2) * 4000 ≤ (i 0).val ∧ (i 0).val < win0_6.index t (0 : Fin 2) * 4000 + 4000; rw [e0, ht]; omega
  | ⟨1, _⟩ => show win0_6.index t (1 : Fin 2) * 256 ≤ (i 1).val ∧ (i 1).val < win0_6.index t (1 : Fin 2) * 256 + 256; rw [e1]; omega

/-- The output array after the region: the rectified layer of the arrays as the region finds them. -/
theorem final
    (hpay : ∀ (cnt : Vec Ideal S4000x1 .f32) (agg x : Vec Ideal S4000x128 .f32) (wl wr : Vec Ideal S128x256 .f32) (b : Vec Ideal S1x256 .f32),
      k0_pay1 (F := Ideal) cnt agg x wl wr b = relu (layer (n := 4000) (d := 128) (h := 256) agg x cnt wl wr b))
    (c : Dev nD) : (dat0 V c).arrAt 6 cfg0.N = G V c :=
  (dat0 V c).arrAt_eq_of_cover 6 (G V c) (fun t _ => flushed_eq V hpay c t) cover

end Cert.KernelIdeal.Region0

end
-- ==== Proof.Region1.lean ====
/-
  The second layer's pallas_call, from blocks to the whole array.

  The grid has 25 points; point `t` reads rows `4000·t … 4000·t + 3999` of the neighbour sums, of the node features and
  of the count column, the two weight matrices and the bias row whole, and writes rows `4000·t … 4000·t + 3999` of
  the output. Since a row of the layer's value depends only on the same row of the row-tiled inputs, what point `t`
  writes back is block `t` of ONE whole-array function of the arrays as the region finds them — the layer —
  and the 25 blocks tile the output: the array ends holding that function.
-/
import proofs.«408753_j14044543058087_1_alg».proof.Proof.Gen.KernelIdeal.Frame
import proofs.«408753_j14044543058087_1_alg».proof.Proof.LibSageLayer
import Idealize.ShloMosaic.Lib.Pipeline.Value
import Idealize.ShloMosaic.Lib.ValueIdx

set_option maxRecDepth 16384

noncomputable section

namespace Cert.KernelIdeal.Region1

open Cert.KernelIdeal Cert.KernelIdeal.Gen Cert.LibSageLayer
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-tiled windows sit at block row `t`, the whole ones at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The neighbour-sum block at point `t` is rows `4000·t …` of the array. -/
theorem blk0_apply (c : Dev nD) (t : Fin cfg1.N) (y : S4000x256.Idx) (k : S100000x256.Idx)
    (hk0 : (k 0).val = t.val * 4000 + (y 0).val) (hk1 : (k 1).val = (y 1).val) :
    (iblk1 V c 0 t : Vec Ideal S4000x256 .f32) y = (V c main_v18 : S100000x256.Idx → EReal) k := by
  obtain ⟨e0, e1, -⟩ := idx_facts t
  unfold iblk1
  rw [View.read_apply]
  show V c main_v18 _ = V c main_v18 _
  congr 1
  funext a
  apply Fin.ext
  match a with
  | ⟨0, _⟩ => show win1_0.index t 0 * 4000 + 1 * (y 0).val = (k 0).val; rw [e0, hk0]; omega
  | ⟨1, _⟩ => show win1_0.index t 1 * 256 + 1 * (y 1).val = (k 1).val; rw [e1, hk1]; omega

/-- The node-feature block at point `t` is rows `4000·t …` of the array. -/
theorem blk1_apply (c : Dev nD) (t : Fin cfg1.N) (y : S4000x256.Idx) (k : S100000x256.Idx)
    (hk0 : (k 0).val = t.val * 4000 + (y 0).val) (hk1 : (k 1).val = (y 1).val) :
    (iblk1 V c 1 t : Vec Ideal S4000x256 .f32) y = (V c main_v14 : S100000x256.Idx → EReal) k := by
  obtain ⟨-, -, e0, e1, -⟩ := idx_facts t
  unfold iblk1
  rw [View.read_apply]
  show V c main_v14 _ = V c main_v14 _
  congr 1
  funext a
  apply Fin.ext
  match a with
  | ⟨0, _⟩ => show win1_1.index t 0 * 4000 + 1 * (y 0).val = (k 0).val; rw [e0, hk0]; omega
  | ⟨1, _⟩ => show win1_1.index t 1 * 256 + 1 * (y 1).val = (k 1).val; rw [e1, hk1]; omega

/-- The count block at point `t` is rows `4000·t …` of the count column. -/
theorem blk2_apply (c : Dev nD) (t : Fin cfg1.N) (y : S4000x1.Idx) (k : S100000x1.Idx)
    (hk0 : (k 0).val = t.val * 4000 + (y 0).val) (hk1 : (k 1).val = (y 1).val) :
    (iblk1 V c 2 t : Vec Ideal S4000x1 .f32) y = (V c main_v8 : S100000x1.Idx → EReal) k := by
  obtain ⟨-, -, -, -, e0, e1, -⟩ := idx_facts t
  unfold iblk1
  rw [View.read_apply]
  show V c main_v8 _ = V c main_v8 _
  congr 1
  funext a
  apply Fin.ext
  match a with
  | ⟨0, _⟩ => show win1_2.index t 0 * 4000 + 1 * (y 0).val = (k 0).val; rw [e0, hk0]; omega
  | ⟨1, _⟩ => show win1_2.index t 1 * 1 + 1 * (y 1).val = (k 1).val; rw [e1, hk1]; omega

/-- The first weight matrix is read whole at every point. -/
theorem blk3_eq (c : Dev nD) (t : Fin cfg1.N) :
    (iblk1 V c 3 t : Vec Ideal S256x40 .f32) = (V c main_arg5 : S256x40.Idx → EReal) := by
  obtain ⟨-, -, -, -, -, -, e0, e1, -⟩ := idx_facts t
  funext y
  unfold iblk1
  rw [View.read_apply]
  show V c main_arg5 _ = V c main_arg5 _
  congr 1
  funext a
  apply Fin.ext
  match a with
  | ⟨0, _⟩ => show win1_3.index t 0 * 256 + 1 * (y 0).val = (y 0).val; rw [e0]; omega
  | ⟨1, _⟩ => show win1_3.index t 1 * 40 + 1 * (y 1).val = (y 1).val; rw [e1]; omega

/-- The second weight matrix is read whole at every point. -/
theorem blk4_eq (c : Dev nD) (t : Fin cfg1.N) :
    (iblk1 V c 4 t : Vec Ideal S256x40 .f32) = (V c main_arg7 : S256x40.Idx → EReal) := by
  obtain ⟨-, -, -, -, -, -, -, -, e0, e1, -⟩ := idx_facts t
  funext y
  unfold iblk1
  rw [View.read_apply]
  show V c main_arg7 _ = V c main_arg7 _
  congr 1
  funext a
  apply Fin.ext
  match a with
  | ⟨0, _⟩ => show win1_4.index t 0 * 256 + 1 * (y 0).val = (y 0).val; rw [e0]; omega
  | ⟨1, _⟩ => show win1_4.index t 1 * 40 + 1 * (y 1).val = (y 1).val; rw [e1]; omega

/-- The bias row is read whole at every point. -/
theorem blk5_eq (c : Dev nD) (t : Fin cfg1.N) :
    (iblk1 V c 5 t : Vec Ideal S1x40 .f32) = (V c main_v19 : S1x40.Idx → EReal) := by
  obtain ⟨-, -, -, -, -, -, -, -, -, -, e0, e1, -⟩ := idx_facts t
  funext y
  unfold iblk1
  rw [View.read_apply]
  show V c main_v19 _ = V c main_v19 _
  congr 1
  funext a
  apply Fin.ext
  match a with
  | ⟨0, _⟩ => show win1_5.index t 0 * 1 + 1 * (y 0).val = (y 0).val; rw [e0]; omega
  | ⟨1, _⟩ => show win1_5.index t 1 * 40 + 1 * (y 1).val = (y 1).val; rw [e1]; omega

/-- A row of the layer depends only on the same row of the row-tiled inputs: if three blocks are rows `4000·T …` of
    three arrays, the layer of the blocks at `(p, q)` is the layer of the arrays at `(4000·T + p, q)`. -/
theorem layer_rows (x0 x1 : S4000x256.Idx → EReal) (x2 : S4000x1.Idx → EReal) (wl wr : S256x40.Idx → EReal) (b : S1x40.Idx → EReal)
    (agg x : S100000x256.Idx → EReal) (cnt : S100000x1.Idx → EReal) (T : ℕ) (y : S4000x40.Idx) (i : S100000x40.Idx)
    (hi0 : (i 0).val = T * 4000 + (y 0).val) (hi1 : (i 1).val = (y 1).val)
    (h0 : ∀ (y' : S4000x256.Idx) (k : S100000x256.Idx), (k 0).val = T * 4000 + (y' 0).val → (k 1).val = (y' 1).val → x0 y' = agg k)
    (h1 : ∀ (y' : S4000x256.Idx) (k : S100000x256.Idx), (k 0).val = T * 4000 + (y' 0).val → (k 1).val = (y' 1).val → x1 y' = x k)
    (h2 : ∀ (y' : S4000x1.Idx) (k : S100000x1.Idx), (k 0).val = T * 4000 + (y' 0).val → (k 1).val = (y' 1).val → x2 y' = cnt k) :
    (layer (n := 4000) (d := 256) (h := 40) x0 x1 x2 wl wr b) y
      = (layer (n := 100000) (d := 256) (h := 40) agg x cnt wl wr b) i := by
  obtain ⟨p, q, rfl⟩ : ∃ (p : Fin 4000) (q : Fin 40), y = ix2 p q := ⟨y 0, y 1, eq_ix2 y⟩
  obtain ⟨r, q', rfl⟩ : ∃ (r : Fin 100000) (q' : Fin 40), i = ix2 r q' := ⟨i 0, i 1, eq_ix2 i⟩
  have hq : q' = q := Fin.ext hi1
  subst hq
  have hr : r.val = T * 4000 + p.val := hi0
  rw [layer_apply, layer_apply]
  have e2 : x2 (ix2 p (0 : Fin 1)) = cnt (ix2 r (0 : Fin 1)) := h2 _ _ hr rfl
  have e0 : ∀ k : Fin 256, x0 (ix2 p k) = agg (ix2 r k) := fun k => h0 _ _ hr rfl
  have e1 : ∀ k : Fin 256, x1 (ix2 p k) = x (ix2 r k) := fun k => h1 _ _ hr rfl
  simp only [e0, e1, e2]

/-- The whole-array function the region's output ends at: the layer of the arrays as the region finds them. -/
abbrev G (c : Dev nD) : S100000x40.Idx → EReal :=
  (layer (n := 100000) (d := 256) (h := 40) (V c main_v18) (V c main_v14) (V c main_v8) (V c main_arg5) (V c main_arg7) (V c main_v19))

/-- What point `t` writes back is block `t` of `G`, given that the body's arithmetic is the layer of its blocks. -/
theorem flushed_eq
    (hpay : ∀ (cnt : Vec Ideal S4000x1 .f32) (agg x : Vec Ideal S4000x256 .f32) (wl wr : Vec Ideal S256x40 .f32) (b : Vec Ideal S1x40 .f32),
      k1_pay1 (F := Ideal) cnt agg x wl wr b = (layer (n := 4000) (d := 256) (h := 40) agg x cnt wl wr b))
    (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S4000x256) hz, View.ld_unit_zero (S := S4000x1) hz, View.ld_unit_zero (S := S256x40) hz,
    View.ld_unit_zero (S := S1x40) hz]
  rw [hpay, blk3_eq V c t, blk4_eq V c t, blk5_eq V c t]
  obtain ⟨-, -, -, -, -, -, -, -, -, -, -, -, e0, e1⟩ := idx_facts t
  funext j
  show (layer (n := 4000) (d := 256) (h := 40) (iblk1 V c 0 t) (iblk1 V c 1 t) (iblk1 V c 2 t) (V c main_arg5) (V c main_arg7) (V c main_v19)) j
    = G V c (((cfg1.win 6).blk t).view.emb j)
  exact layer_rows (iblk1 V c 0 t) (iblk1 V c 1 t) (iblk1 V c 2 t) (V c main_arg5) (V c main_arg7) (V c main_v19)
    (V c main_v18) (V c main_v14) (V c main_v8) t.val j (((cfg1.win 6).blk t).view.emb j)
    (by show win1_6.index t 0 * 4000 + 1 * (j 0).val = t.val * 4000 + (j 0).val; rw [e0]; omega)
    (by show win1_6.index t 1 * 40 + 1 * (j 1).val = (j 1).val; rw [e1]; omega)
    (fun y' k hk0 hk1 => blk0_apply V c t y' k hk0 hk1)
    (fun y' k hk0 hk1 => blk1_apply V c t y' k hk0 hk1)
    (fun y' k hk0 hk1 => blk2_apply V c t y' k hk0 hk1)

/-- An index of the output array is in point `t`'s block iff each coordinate is in the block's range on its axis. -/
theorem mem_blk (t : Fin cfg1.N) (i : S100000x40.Idx) :
    i ∈ ((cfg1.win 6).blk t).view.set ↔ ∀ a : Fin 2, win1_6.index t a * S4000x40.size a ≤ (i a).val ∧ (i a).val < win1_6.index t a * S4000x40.size a + S4000x40.size a := by
  show i ∈ ((View.whole main_v20).slice (win1_6.rect t)).set ↔ _
  rw [View.set_slice_whole, Rect.mem_set_unit]
  exact Iff.rfl

/-- Every row of the output lies in the block of the point `row / 4000`. -/
theorem cover (i : S100000x40.Idx) : ∃ t : Fin cfg1.N, (cfg1.win 6).flush t = true ∧ i ∈ ((cfg1.win 6).blk t).view.set := by
  have hi0 : (i 0).val < 100000 := (i 0).isLt
  have hi1 : (i 1).val < 40 := (i 1).isLt
  have hN : cfg1.N = 25 := N_1
  let t : Fin cfg1.N := ⟨(i 0).val / 4000, by rw [hN]; omega⟩
  obtain ⟨-, -, -, -, -, -, -, -, -, -, -, -, e0, e1⟩ := idx_facts t
  have ht : t.val = (i 0).val / 4000 := rfl
  refine ⟨t, flush1_6 t, ?_⟩
  rw [mem_blk]
  intro a
  match a with
  | ⟨0, _⟩ => show win1_6.index t (0 : Fin 2) * 4000 ≤ (i 0).val ∧ (i 0).val < win1_6.index t (0 : Fin 2) * 4000 + 4000; rw [e0, ht]; omega
  | ⟨1, _⟩ => show win1_6.index t (1 : Fin 2) * 40 ≤ (i 1).val ∧ (i 1).val < win1_6.index t (1 : Fin 2) * 40 + 40; rw [e1]; omega

/-- The output array after the region: the layer of the arrays as the region finds them. -/
theorem final
    (hpay : ∀ (cnt : Vec Ideal S4000x1 .f32) (agg x : Vec Ideal S4000x256 .f32) (wl wr : Vec Ideal S256x40 .f32) (b : Vec Ideal S1x40 .f32),
      k1_pay1 (F := Ideal) cnt agg x wl wr b = (layer (n := 4000) (d := 256) (h := 40) agg x cnt wl wr b))
    (c : Dev nD) : (dat1 V c).arrAt 6 cfg1.N = G V c :=
  (dat1 V c).arrAt_eq_of_cover 6 (G V c) (fun t _ => flushed_eq V hpay c t) cover

end Cert.KernelIdeal.Region1

end
-- ==== Proof.Payload.lean ====
/-
  The arithmetic of the two kernel bodies, each read as one function of the block's inputs, on the extended reals.

  Both bodies compute, for a node r and an output feature j,

      ( Σ_k (agg[r,k] / max(cnt[r], 1)) · wl[k,j]  +  Σ_k x[r,k] · wr[k,j] )  +  b[j]

  and the first one ends with the maximum with zero. Entry by entry: the count column is compared with the constant
  one, spread along each row and divided into the neighbour sums; on the extended reals a change of float format is
  the identity, so the two products into a zero accumulator are the two sums over the contracted axis; the bias row is
  spread down the rows and added. Each step that is not entrywise (a reshape of a shape to itself, the spreading of a
  column along the rows or of a row down the columns, a product of matrices) is read at a pair of coordinates by one
  small lemma; the entrywise steps are read at the same pair by definition. The result is the layer of the
  specification at those coordinates, term for term.
-/
import proofs.«408753_j14044543058087_1_alg».proof.Proof.Gen.KernelIdeal.Skeleton
import proofs.«408753_j14044543058087_1_alg».proof.Proof.LibSageLayer
import Idealize.ShloMosaic.PureOps.Ideal.Laws
import Idealize.ShloMosaic.Lib.ValueIdx
import Idealize.ShloMosaic.Lib.Pipeline.Value

noncomputable section

namespace Cert.KernelIdeal.Payload

open Cert.KernelIdeal Cert.KernelIdeal.Gen Idealize.ShloMosaic Idealize.ShloMosaic.ValueIdx Idealize.SL.Sem

/-! ## A column spread along the rows, a row spread down the columns -/

/-- A column of 4000 entries spread to 128 columns: the entry of the row. -/
theorem col128_apply (c : FVec Ideal S4000x1 .f32) (p : Fin 4000) (k : Fin 128) :
    broadcastTo S4000x128 c broadcasts_S4000x1_S4000x128 (ix2 p k) = c (ix2 p (0 : Fin 1)) := by
  refine broadcastTo_apply c _ (ix2 p k) (ix2 p (0 : Fin 1)) ?_
  intro a
  match a with
  | ⟨0, _⟩ => show p.val = if (4000 : Nat) = 1 then 0 else p.val; rw [if_neg (by decide)]
  | ⟨1, _⟩ => show 0 = if (1 : Nat) = 1 then 0 else k.val; rw [if_pos rfl]

/-- A column of 4000 entries spread to 256 columns: the entry of the row. -/
theorem col256_apply (c : FVec Ideal S4000x1 .f32) (p : Fin 4000) (k : Fin 256) :
    broadcastTo S4000x256 c broadcasts_S4000x1_S4000x256 (ix2 p k) = c (ix2 p (0 : Fin 1)) := by
  refine broadcastTo_apply c _ (ix2 p k) (ix2 p (0 : Fin 1)) ?_
  intro a
  match a with
  | ⟨0, _⟩ => show p.val = if (4000 : Nat) = 1 then 0 else p.val; rw [if_neg (by decide)]
  | ⟨1, _⟩ => show 0 = if (1 : Nat) = 1 then 0 else k.val; rw [if_pos rfl]

/-- A row of 256 entries spread down 4000 rows: the entry of the column. -/
theorem row256_apply (r : FVec Ideal S1x256 .f32) (p : Fin 4000) (q : Fin 256) :
    broadcastTo S4000x256 r broadcasts_S1x256_S4000x256 (ix2 p q) = r (ix2 (0 : Fin 1) q) := by
  refine broadcastTo_apply r _ (ix2 p q) (ix2 (0 : Fin 1) q) ?_
  intro a
  match a with
  | ⟨0, _⟩ => show 0 = if (1 : Nat) = 1 then 0 else p.val; rw [if_pos rfl]
  | ⟨1, _⟩ => show q.val = if (256 : Nat) = 1 then 0 else q.val; rw [if_neg (by decide)]

/-- A row of 40 entries spread down 4000 rows: the entry of the column. -/
theorem row40_apply (r : FVec Ideal S1x40 .f32) (p : Fin 4000) (q : Fin 40) :
    broadcastTo S4000x40 r broadcasts_S1x40_S4000x40 (ix2 p q) = r (ix2 (0 : Fin 1) q) := by
  refine broadcastTo_apply r _ (ix2 p q) (ix2 (0 : Fin 1) q) ?_
  intro a
  match a with
  | ⟨0, _⟩ => show 0 = if (1 : Nat) = 1 then 0 else p.val; rw [if_pos rfl]
  | ⟨1, _⟩ => show q.val = if (40 : Nat) = 1 then 0 else q.val; rw [if_neg (by decide)]

/-! ## The two products of matrices, into a zero accumulator -/

theorem lhs_mm0_0 (i : S4000x256.Idx) (q : dot_S4000x128_S128x256_S4000x256_1_0_0_1_n_n.contr.Idx) :
    (dot_S4000x128_S128x256_S4000x256_1_0_0_1_n_n.lhsIdx i q 0).val = (i 0).val := by
  unfold DotDims.lhsIdx
  rw [dif_neg (show ¬(0 : Fin S4000x128.rank) ∈ dot_S4000x128_S128x256_S4000x256_1_0_0_1_n_n.lhsBatch by decide), dif_pos (show (0 : Fin S4000x128.rank) ∈ dot_S4000x128_S128x256_S4000x256_1_0_0_1_n_n.lhsNonContracting by decide)]
  rfl
theorem lhs_mm0_1 (i : S4000x256.Idx) (q : dot_S4000x128_S128x256_S4000x256_1_0_0_1_n_n.contr.Idx) :
    (dot_S4000x128_S128x256_S4000x256_1_0_0_1_n_n.lhsIdx i q 1).val = (q ⟨0, by decide⟩).val :=
  dot_S4000x128_S128x256_S4000x256_1_0_0_1_n_n.lhsIdx_val_of_single rfl i q
theorem rhs_mm0_0 (i : S4000x256.Idx) (q : dot_S4000x128_S128x256_S4000x256_1_0_0_1_n_n.contr.Idx) :
    (dot_S4000x128_S128x256_S4000x256_1_0_0_1_n_n.rhsIdx i q 0).val = (q ⟨0, by decide⟩).val :=
  dot_S4000x128_S128x256_S4000x256_1_0_0_1_n_n.rhsIdx_val_of_single rfl i q
theorem rhs_mm0_1 (i : S4000x256.Idx) (q : dot_S4000x128_S128x256_S4000x256_1_0_0_1_n_n.contr.Idx) :
    (dot_S4000x128_S128x256_S4000x256_1_0_0_1_n_n.rhsIdx i q 1).val = (i 1).val := by
  unfold DotDims.rhsIdx
  rw [dif_neg (show ¬(1 : Fin S128x256.rank) ∈ dot_S4000x128_S128x256_S4000x256_1_0_0_1_n_n.rhsBatch by decide), dif_pos (show (1 : Fin S128x256.rank) ∈ dot_S4000x128_S128x256_S4000x256_1_0_0_1_n_n.rhsNonContracting by decide)]
  rfl

/-- The [4000,128] by [128,256] product into the zero accumulator, at row p and column q: the sum over the shared axis. -/
theorem mm0_apply {φ₁ φ₂ : FTy} (a : FVec Ideal S4000x128 φ₁) (w : FVec Ideal S128x256 φ₂) (p : Fin 4000) (q : Fin 256) :
    matmul dot_S4000x128_S128x256_S4000x256_1_0_0_1_n_n none a w (constant (F := Ideal) S4000x256 .f32 0x00000000#32) (ix2 p q)
      = ∑ k : Fin 128, a (ix2 p k) * w (ix2 k q) := by
  simp only [matmul]
  rw [Ideal.matmul_constant_zero_apply, ← Equiv.sum_comp (contrEquiv1 dot_S4000x128_S128x256_S4000x256_1_0_0_1_n_n 128 rfl rfl).symm]
  refine Finset.sum_congr rfl fun k _ => ?_
  have hk := contrEquiv1_symm_val dot_S4000x128_S128x256_S4000x256_1_0_0_1_n_n 128 rfl rfl k
  have el : dot_S4000x128_S128x256_S4000x256_1_0_0_1_n_n.lhsIdx (ix2 p q) ((contrEquiv1 dot_S4000x128_S128x256_S4000x256_1_0_0_1_n_n 128 rfl rfl).symm k) = ix2 p k := funext fun a => Fin.ext (by
    match a with
    | ⟨0, _⟩ => exact lhs_mm0_0 _ _
    | ⟨1, _⟩ => exact (lhs_mm0_1 _ _).trans hk)
  have er : dot_S4000x128_S128x256_S4000x256_1_0_0_1_n_n.rhsIdx (ix2 p q) ((contrEquiv1 dot_S4000x128_S128x256_S4000x256_1_0_0_1_n_n 128 rfl rfl).symm k) = ix2 k q := funext fun a => Fin.ext (by
    match a with
    | ⟨0, _⟩ => exact (rhs_mm0_0 _ _).trans hk
    | ⟨1, _⟩ => exact rhs_mm0_1 _ _)
  rw [el, er]

theorem lhs_mm1_0 (i : S4000x40.Idx) (q : dot_S4000x256_S256x40_S4000x40_1_0_0_1_n_n.contr.Idx) :
    (dot_S4000x256_S256x40_S4000x40_1_0_0_1_n_n.lhsIdx i q 0).val = (i 0).val := by
  unfold DotDims.lhsIdx
  rw [dif_neg (show ¬(0 : Fin S4000x256.rank) ∈ dot_S4000x256_S256x40_S4000x40_1_0_0_1_n_n.lhsBatch by decide), dif_pos (show (0 : Fin S4000x256.rank) ∈ dot_S4000x256_S256x40_S4000x40_1_0_0_1_n_n.lhsNonContracting by decide)]
  rfl
theorem lhs_mm1_1 (i : S4000x40.Idx) (q : dot_S4000x256_S256x40_S4000x40_1_0_0_1_n_n.contr.Idx) :
    (dot_S4000x256_S256x40_S4000x40_1_0_0_1_n_n.lhsIdx i q 1).val = (q ⟨0, by decide⟩).val :=
  dot_S4000x256_S256x40_S4000x40_1_0_0_1_n_n.lhsIdx_val_of_single rfl i q
theorem rhs_mm1_0 (i : S4000x40.Idx) (q : dot_S4000x256_S256x40_S4000x40_1_0_0_1_n_n.contr.Idx) :
    (dot_S4000x256_S256x40_S4000x40_1_0_0_1_n_n.rhsIdx i q 0).val = (q ⟨0, by decide⟩).val :=
  dot_S4000x256_S256x40_S4000x40_1_0_0_1_n_n.rhsIdx_val_of_single rfl i q
theorem rhs_mm1_1 (i : S4000x40.Idx) (q : dot_S4000x256_S256x40_S4000x40_1_0_0_1_n_n.contr.Idx) :
    (dot_S4000x256_S256x40_S4000x40_1_0_0_1_n_n.rhsIdx i q 1).val = (i 1).val := by
  unfold DotDims.rhsIdx
  rw [dif_neg (show ¬(1 : Fin S256x40.rank) ∈ dot_S4000x256_S256x40_S4000x40_1_0_0_1_n_n.rhsBatch by decide), dif_pos (show (1 : Fin S256x40.rank) ∈ dot_S4000x256_S256x40_S4000x40_1_0_0_1_n_n.rhsNonContracting by decide)]
  rfl

/-- The [4000,256] by [256,40] product into the zero accumulator, at row p and column q: the sum over the shared axis. -/
theorem mm1_apply {φ₁ φ₂ : FTy} (a : FVec Ideal S4000x256 φ₁) (w : FVec Ideal S256x40 φ₂) (p : Fin 4000) (q : Fin 40) :
    matmul dot_S4000x256_S256x40_S4000x40_1_0_0_1_n_n none a w (constant (F := Ideal) S4000x40 .f32 0x00000000#32) (ix2 p q)
      = ∑ k : Fin 256, a (ix2 p k) * w (ix2 k q) := by
  simp only [matmul]
  rw [Ideal.matmul_constant_zero_apply, ← Equiv.sum_comp (contrEquiv1 dot_S4000x256_S256x40_S4000x40_1_0_0_1_n_n 256 rfl rfl).symm]
  refine Finset.sum_congr rfl fun k _ => ?_
  have hk := contrEquiv1_symm_val dot_S4000x256_S256x40_S4000x40_1_0_0_1_n_n 256 rfl rfl k
  have el : dot_S4000x256_S256x40_S4000x40_1_0_0_1_n_n.lhsIdx (ix2 p q) ((contrEquiv1 dot_S4000x256_S256x40_S4000x40_1_0_0_1_n_n 256 rfl rfl).symm k) = ix2 p k := funext fun a => Fin.ext (by
    match a with
    | ⟨0, _⟩ => exact lhs_mm1_0 _ _
    | ⟨1, _⟩ => exact (lhs_mm1_1 _ _).trans hk)
  have er : dot_S4000x256_S256x40_S4000x40_1_0_0_1_n_n.rhsIdx (ix2 p q) ((contrEquiv1 dot_S4000x256_S256x40_S4000x40_1_0_0_1_n_n 256 rfl rfl).symm k) = ix2 k q := funext fun a => Fin.ext (by
    match a with
    | ⟨0, _⟩ => exact (rhs_mm1_0 _ _).trans hk
    | ⟨1, _⟩ => exact rhs_mm1_1 _ _)
  rw [el, er]

/-! ## The two bodies -/

/-- The first body is the layer followed by the maximum with zero. -/
theorem pay0_eq (cnt : Vec Ideal S4000x1 .f32) (agg x : Vec Ideal S4000x128 .f32) (wl wr : Vec Ideal S128x256 .f32) (b : Vec Ideal S1x256 .f32) :
    Cert.KernelIdeal.Gen.k0_pay1 (F := Ideal) cnt agg x wl wr b = Cert.LibSageLayer.relu (Cert.LibSageLayer.layer (n := 4000) (d := 128) (h := 256) agg x cnt wl wr b) := by
  funext j
  obtain ⟨p, q, rfl⟩ : ∃ (p : Fin 4000) (q : Fin 256), j = ix2 p q := ⟨j 0, j 1, eq_ix2 j⟩
  unfold Cert.KernelIdeal.Gen.k0_pay1
  rw [shapeCast_self, shapeCast_self, shapeCast_self]
  rw [maximumf_apply, addf_apply, addf_apply, mm0_apply, mm0_apply, row256_apply, broadcast_apply]
  simp only [truncf_apply, divf_apply, col128_apply, maximumf_apply, broadcast_apply]
  rfl

/-- The second body is the layer. -/
theorem pay1_eq (cnt : Vec Ideal S4000x1 .f32) (agg x : Vec Ideal S4000x256 .f32) (wl wr : Vec Ideal S256x40 .f32) (b : Vec Ideal S1x40 .f32) :
    Cert.KernelIdeal.Gen.k1_pay1 (F := Ideal) cnt agg x wl wr b = Cert.LibSageLayer.layer (n := 4000) (d := 256) (h := 40) agg x cnt wl wr b := by
  funext j
  obtain ⟨p, q, rfl⟩ : ∃ (p : Fin 4000) (q : Fin 40), j = ix2 p q := ⟨j 0, j 1, eq_ix2 j⟩
  unfold Cert.KernelIdeal.Gen.k1_pay1
  rw [shapeCast_self, shapeCast_self, shapeCast_self, shapeCast_self]
  rw [addf_apply, addf_apply, mm1_apply, mm1_apply, row40_apply]
  simp only [truncf_apply, divf_apply, col256_apply, maximumf_apply, broadcast_apply]
  rfl

end Cert.KernelIdeal.Payload

end
-- ==== Proof.HostStages.lean ====
/-
  The values the kernel's host operations compute, named once.

  From the edge list `ei : [2, E]` (row 0 the source node of each edge, row 1 its destination): the source indices with
  a negative index wrapped by the number of nodes and laid out as a column (`srcCol`), the destination indices as a
  column (`dstCol`), the bit per edge that says its wrapped source index lies in `[0, N − 1]` (`srcInRange`), the
  gathered source rows with the rows of out-of-range edges replaced by the float word `0x7FC00000` (`takeRows`), the
  number of incoming edges of each node as a column (`cntCol`), and a bias vector as a one-row matrix (`biasRow`).
  All at the ideal instance: floats are extended reals.
-/
import proofs.«408753_j14044543058087_1_alg».proof.Proof.Gen.KernelIdeal
import Idealize.ShloMosaic.PureOps.Ideal

noncomputable section

namespace Cert.KernelIdeal.Host

open Cert.KernelIdeal Cert.KernelIdeal.Facts₀ Cert.KernelIdeal.Facts Idealize.ShloMosaic

/-- Row 0 of the edge list: each edge's source node, as given. -/
def srcRaw (ei : IVec S2x800000 32) : IVec S800000 32 :=
  shapeCast S800000 (extractStridedSlice S1x800000 ![0, 0] ei slices_S2x800000_S1x800000_0_0) shapeCasts_S1x800000_S800000

/-- Row 1 of the edge list: each edge's destination node. -/
def dstRaw (ei : IVec S2x800000 32) : IVec S800000 32 :=
  shapeCast S800000 (extractStridedSlice S1x800000 ![1, 0] ei slices_S2x800000_S1x800000_1_0) shapeCasts_S1x800000_S800000

/-- The source indices with a negative one wrapped: `s + N` where `s < 0`, else `s`. -/
def srcWrapped (ei : IVec S2x800000 32) : IVec S800000 32 :=
  select (cmpi .slt (srcRaw ei) (broadcastInDim S800000 ![] bcast_S_S800000 (constantI S_ 32 0#32)))
    (addi (srcRaw ei) (broadcastInDim S800000 ![] bcast_S_S800000 (constantI S_ 32 100000#32))) (srcRaw ei)

/-- The wrapped source indices as a column of start indices. -/
def srcCol (ei : IVec S2x800000 32) : IVec S800000x1 32 :=
  broadcastInDim S800000x1 ![0] bcast_S800000_S800000x1_0 (srcWrapped ei)

/-- The destination indices as a column of scatter indices. -/
def dstCol (ei : IVec S2x800000 32) : IVec S800000x1 32 :=
  broadcastInDim S800000x1 ![0] bcast_S800000_S800000x1_0 (dstRaw ei)

/-- Per edge: is the wrapped source index in `[0, N − 1]`? -/
def srcInRange (ei : IVec S2x800000 32) : IVec S800000 1 :=
  Host.reduce IntOp.andi
    (andi (cmpi .sge (srcCol ei) (broadcastInDim S800000x1 ![] bcast_S_S800000x1 (constantI S_ 32 0#32)))
      (cmpi .sle (srcCol ei) (broadcastInDim S800000x1 ![0, 1] bcast_S1x1_S800000x1_0_1
        (broadcastInDim S1x1 ![1] bcast_S1_S1x1_1 (constantI S1 32 99999#32)))))
    (constantI S_ 1 1#1) reducesTo_S800000x1_S800000_d1 h_S_

/-- The node count of incoming edges, one entry per node, as a column. -/
def cntCol (ei : IVec S2x800000 32) : FVec Ideal S100000x1 .f32 :=
  shapeCast S100000x1
    (Host.scatterAdd scatter_S100000_S800000x1_S800000_n_0_0_1
      (broadcastInDim S100000 ![] bcast_S_S100000 (constant S_ .f32 0x00000000#32)) (dstCol ei)
      (broadcastInDim S800000 ![] bcast_S_S800000 (constant S_ .f32 0x3F800000#32)))
    shapeCasts_S100000_S100000x1

/-- The gathered source rows of a 128-column array, the rows of out-of-range edges replaced by the word `0x7FC00000`. -/
def takeRows128 (x : FVec Ideal S100000x128 .f32) (ei : IVec S2x800000 32) : FVec Ideal S800000x128 .f32 :=
  select (broadcastInDim S800000x128 ![0] bcast_S800000_S800000x128_0 (srcInRange ei))
    (Host.gather gather_S100000x128_S800000x1_S800000x128_1_0_n_n_0_1_1128 x (srcCol ei))
    (broadcastInDim S800000x128 ![] bcast_S_S800000x128 (constant S_ .f32 0x7FC00000#32))

/-- The same for a 256-column array. -/
def takeRows256 (x : FVec Ideal S100000x256 .f32) (ei : IVec S2x800000 32) : FVec Ideal S800000x256 .f32 :=
  select (broadcastInDim S800000x256 ![0] bcast_S800000_S800000x256_0 (srcInRange ei))
    (Host.gather gather_S100000x256_S800000x1_S800000x256_1_0_n_n_0_1_1256 x (srcCol ei))
    (broadcastInDim S800000x256 ![] bcast_S_S800000x256 (constant S_ .f32 0x7FC00000#32))

/-- The neighbour sums of a 128-column array: the taken rows added into their destination nodes. -/
def aggTake128 (x : FVec Ideal S100000x128 .f32) (ei : IVec S2x800000 32) : FVec Ideal S100000x128 .f32 :=
  Host.scatterAdd scatter_S100000x128_S800000x1_S800000x128_1_0_0_1
    (broadcastInDim S100000x128 ![] bcast_S_S100000x128 (constant S_ .f32 0x00000000#32)) (dstCol ei) (takeRows128 x ei)

/-- The same for a 256-column array. -/
def aggTake256 (x : FVec Ideal S100000x256 .f32) (ei : IVec S2x800000 32) : FVec Ideal S100000x256 .f32 :=
  Host.scatterAdd scatter_S100000x256_S800000x1_S800000x256_1_0_0_1
    (broadcastInDim S100000x256 ![] bcast_S_S100000x256 (constant S_ .f32 0x00000000#32)) (dstCol ei) (takeRows256 x ei)

/-- The neighbour sums with the plain gather (every source index in range). -/
def agg128 (x : FVec Ideal S100000x128 .f32) (ei : IVec S2x800000 32) : FVec Ideal S100000x128 .f32 :=
  Host.scatterAdd scatter_S100000x128_S800000x1_S800000x128_1_0_0_1
    (broadcastInDim S100000x128 ![] bcast_S_S100000x128 (constant S_ .f32 0x00000000#32)) (dstCol ei)
    (Host.gather gather_S100000x128_S800000x1_S800000x128_1_0_n_n_0_1_1128 x (srcCol ei))

/-- The same for a 256-column array. -/
def agg256 (x : FVec Ideal S100000x256 .f32) (ei : IVec S2x800000 32) : FVec Ideal S100000x256 .f32 :=
  Host.scatterAdd scatter_S100000x256_S800000x1_S800000x256_1_0_0_1
    (broadcastInDim S100000x256 ![] bcast_S_S100000x256 (constant S_ .f32 0x00000000#32)) (dstCol ei)
    (Host.gather gather_S100000x256_S800000x1_S800000x256_1_0_n_n_0_1_1256 x (srcCol ei))

/-- A bias vector of 256 entries as a one-row matrix. -/
def biasRow256 (b : FVec Ideal S256 .f32) : FVec Ideal S1x256 .f32 := shapeCast S1x256 b shapeCasts_S256_S1x256
/-- A bias vector of 40 entries as a one-row matrix. -/
def biasRow40 (b : FVec Ideal S40 .f32) : FVec Ideal S1x40 .f32 := shapeCast S1x40 b shapeCasts_S40_S1x40

end Cert.KernelIdeal.Host

end
-- ==== Proof.HostRead.lean ====
/-
  What each pallas_call finds in its operand arrays: the host operations before it, read back as the named values of
  the edge list and the arguments.

  The host operations come in stretches; each stretch is read over an arbitrary valuation of the buffers it starts
  from, so that no reading ever opens more than one stretch. Before the first call: the neighbour sums of the node
  features (through the masked gather), the count column, the bias as a row, and the arguments untouched. Between the
  calls: the neighbour sums of the first call's output, the same count column, the second bias as a row, the first
  call's output itself, and the arguments untouched.
-/
import proofs.«408753_j14044543058087_1_alg».proof.Proof.Gen.KernelIdeal.Frame
import proofs.«408753_j14044543058087_1_alg».proof.Proof.HostStages
import Idealize.ShloMosaic.Lib.StableHlo.Run

set_option maxRecDepth 16384

noncomputable section

namespace Cert.KernelIdeal.HostRead

open Cert.KernelIdeal Cert.KernelIdeal.Gen Cert.KernelIdeal.Host
open Idealize.ShloMosaic Idealize.ShloMosaic.TcCoe Idealize.SL.Sem Idealize.ShloMosaic.StableHlo

/-! ## The masked gather as a function of the raw source vector -/

/-- The wrapped source indices of a raw source vector. -/
def wrapOf (s : IVec S800000 32) : IVec S800000 32 :=
  select (cmpi .slt s (broadcastInDim S800000 ![] Facts₀.bcast_S_S800000 (constantI S_ 32 0#32)))
    (addi s (broadcastInDim S800000 ![] Facts₀.bcast_S_S800000 (constantI S_ 32 100000#32))) s
/-- … as a column. -/
def colOf (s : IVec S800000 32) : IVec S800000x1 32 := broadcastInDim S800000x1 ![0] Facts₀.bcast_S800000_S800000x1_0 (wrapOf s)
/-- The in-range bit per edge. -/
def maskOf (s : IVec S800000 32) : IVec S800000 1 :=
  Host.reduce IntOp.andi
    (andi (cmpi .sge (colOf s) (broadcastInDim S800000x1 ![] Facts₀.bcast_S_S800000x1 (constantI S_ 32 0#32)))
      (cmpi .sle (colOf s) (broadcastInDim S800000x1 ![0, 1] Facts₀.bcast_S1x1_S800000x1_0_1
        (broadcastInDim S1x1 ![1] Facts₀.bcast_S1_S1x1_1 (constantI S1 32 99999#32)))))
    (constantI S_ 1 1#1) Facts₀.reducesTo_S800000x1_S800000_d1 Facts₀.h_S_
/-- The masked gather of a 128-column array. -/
def take128Of (x : FVec Ideal S100000x128 .f32) (s : IVec S800000 32) : FVec Ideal S800000x128 .f32 :=
  select (broadcastInDim S800000x128 ![0] Facts₀.bcast_S800000_S800000x128_0 (maskOf s))
    (Host.gather gather_S100000x128_S800000x1_S800000x128_1_0_n_n_0_1_1128 x (colOf s))
    (broadcastInDim S800000x128 ![] Facts₀.bcast_S_S800000x128 (constant S_ .f32 0x7FC00000#32))
/-- The masked gather of a 256-column array. -/
def take256Of (x : FVec Ideal S100000x256 .f32) (s : IVec S800000 32) : FVec Ideal S800000x256 .f32 :=
  select (broadcastInDim S800000x256 ![0] Facts₀.bcast_S800000_S800000x256_0 (maskOf s))
    (Host.gather gather_S100000x256_S800000x1_S800000x256_1_0_n_n_0_1_1256 x (colOf s))
    (broadcastInDim S800000x256 ![] Facts₀.bcast_S_S800000x256 (constant S_ .f32 0x7FC00000#32))

theorem take128Of_raw (x : FVec Ideal S100000x128 .f32) (ei : IVec S2x800000 32) : take128Of x (srcRaw ei) = takeRows128 x ei := rfl
theorem take256Of_raw (x : FVec Ideal S100000x256 .f32) (ei : IVec S2x800000 32) : take256Of x (srcRaw ei) = takeRows256 x ei := rfl

/-! ## One stretch at a time, over any valuation -/

section Stretches
variable (G : Valuation τ sig (Elt Ideal))

set_option maxHeartbeats 4000000 in
/-- The last five operations of the stretch, over any valuation: gather, broadcast the bit, select. -/
theorem take_v9_tail (G' : Valuation τ sig (Elt Ideal)) : StableHlo.after (List.drop 18 hostOps0_1) G' (Proc.devRef .tc main_v9)
    = (select (broadcastInDim S800000x128 ![0] Facts₀.bcast_S800000_S800000x128_0 (G' (Proc.devRef .tc main_call0_v12) : IVec S800000 1))
      (Host.gather gather_S100000x128_S800000x1_S800000x128_1_0_n_n_0_1_1128 (G' (Proc.devRef .tc main_arg0) : FVec Ideal S100000x128 .f32) (G' (Proc.devRef .tc main_call0_v5) : IVec S800000x1 32))
      (broadcastInDim S800000x128 ![] Facts₀.bcast_S_S800000x128 (constant (F := Ideal) S_ .f32 0x7FC00000#32)) : FVec Ideal S800000x128 .f32) := by
  simp only [hostOps0_1, List.drop]
  after_results_simp
  simp only [TRef.toBuf, TRef.ofBuf, cast_eq]

set_option maxHeartbeats 4000000 in
/-- The first masked gather, from the buffers its stretch starts from. The stretch is read in two parts: its first eighteen operations make the index
    column and the in-range bit from the raw source vector; its last five gather, broadcast the bit and select. -/
theorem take_v9 : StableHlo.after hostOps0_1 G (Proc.devRef .tc main_v9)
    = take128Of (G (Proc.devRef .tc main_arg0)) (G (Proc.devRef .tc main_v1)) := by
  have hsplit : (hostOps0_1 : List (HloOp τ sig (Elt Ideal))) = List.take 18 hostOps0_1 ++ List.drop 18 hostOps0_1 :=
    (List.take_append_drop 18 _).symm
  rw [hsplit, StableHlo.after_append]
  have hm : StableHlo.after (List.take 18 hostOps0_1) G (Proc.devRef .tc main_call0_v12) = maskOf (G (Proc.devRef .tc main_v1)) := by
    simp only [hostOps0_1, List.take]
    after_results_simp
    simp only [TRef.toBuf, TRef.ofBuf, cast_eq]
    unfold maskOf colOf wrapOf
    rfl
  have hc : StableHlo.after (List.take 18 hostOps0_1) G (Proc.devRef .tc main_call0_v5) = colOf (G (Proc.devRef .tc main_v1)) := by
    simp only [hostOps0_1, List.take]
    after_results_simp
    simp only [TRef.toBuf, TRef.ofBuf, cast_eq]
    unfold colOf wrapOf
    rfl
  have ha : StableHlo.after (List.take 18 hostOps0_1) G (Proc.devRef .tc main_arg0) = G (Proc.devRef .tc main_arg0) := by
    simp only [hostOps0_1, List.take]
    after_results_simp
  generalize StableHlo.after (List.take 18 hostOps0_1) G = G' at hm hc ha ⊢
  rw [take_v9_tail G', hm, hc, ha]
  rfl

set_option maxHeartbeats 4000000 in
/-- The last five operations of the stretch, over any valuation: gather, broadcast the bit, select. -/
theorem take_v15_tail (G' : Valuation τ sig (Elt Ideal)) : StableHlo.after (List.drop 18 hostOps1) G' (Proc.devRef .tc main_v15)
    = (select (broadcastInDim S800000x256 ![0] Facts₀.bcast_S800000_S800000x256_0 (G' (Proc.devRef .tc main_call1_v12) : IVec S800000 1))
      (Host.gather gather_S100000x256_S800000x1_S800000x256_1_0_n_n_0_1_1256 (G' (Proc.devRef .tc main_v14) : FVec Ideal S100000x256 .f32) (G' (Proc.devRef .tc main_call1_v5) : IVec S800000x1 32))
      (broadcastInDim S800000x256 ![] Facts₀.bcast_S_S800000x256 (constant (F := Ideal) S_ .f32 0x7FC00000#32)) : FVec Ideal S800000x256 .f32) := by
  simp only [hostOps1, List.drop]
  after_results_simp
  simp only [TRef.toBuf, TRef.ofBuf, cast_eq]

set_option maxHeartbeats 4000000 in
/-- The second masked gather, from the buffers its stretch starts from. The stretch is read in two parts: its first eighteen operations make the index
    column and the in-range bit from the raw source vector; its last five gather, broadcast the bit and select. -/
theorem take_v15 : StableHlo.after hostOps1 G (Proc.devRef .tc main_v15)
    = take256Of (G (Proc.devRef .tc main_v14)) (G (Proc.devRef .tc main_v1)) := by
  have hsplit : (hostOps1 : List (HloOp τ sig (Elt Ideal))) = List.take 18 hostOps1 ++ List.drop 18 hostOps1 :=
    (List.take_append_drop 18 _).symm
  rw [hsplit, StableHlo.after_append]
  have hm : StableHlo.after (List.take 18 hostOps1) G (Proc.devRef .tc main_call1_v12) = maskOf (G (Proc.devRef .tc main_v1)) := by
    simp only [hostOps1, List.take]
    after_results_simp
    simp only [TRef.toBuf, TRef.ofBuf, cast_eq]
    unfold maskOf colOf wrapOf
    rfl
  have hc : StableHlo.after (List.take 18 hostOps1) G (Proc.devRef .tc main_call1_v5) = colOf (G (Proc.devRef .tc main_v1)) := by
    simp only [hostOps1, List.take]
    after_results_simp
    simp only [TRef.toBuf, TRef.ofBuf, cast_eq]
    unfold colOf wrapOf
    rfl
  have ha : StableHlo.after (List.take 18 hostOps1) G (Proc.devRef .tc main_v14) = G (Proc.devRef .tc main_v14) := by
    simp only [hostOps1, List.take]
    after_results_simp
  generalize StableHlo.after (List.take 18 hostOps1) G = G' at hm hc ha ⊢
  rw [take_v15_tail G', hm, hc, ha]
  rfl

set_option maxHeartbeats 2000000 in
/-- The first scatter-add, from the buffers its stretch starts from. -/
theorem scatter_v12 : StableHlo.after hostOps0_2 G (Proc.devRef .tc main_v12)
    = (Host.scatterAdd scatter_S100000x128_S800000x1_S800000x128_1_0_0_1
        (broadcastInDim S100000x128 ![] Facts₀.bcast_S_S100000x128 (constant (F := Ideal) S_ .f32 0x00000000#32))
        (broadcastInDim S800000x1 ![0] Facts₀.bcast_S800000_S800000x1_0 (G (Proc.devRef .tc main_v3) : IVec S800000 32))
        (G (Proc.devRef .tc main_v9) : FVec Ideal S800000x128 .f32) : FVec Ideal S100000x128 .f32) := by
  after_results_simp

set_option maxHeartbeats 2000000 in
/-- The second scatter-add, from the buffers its stretch starts from. -/
theorem scatter_v18 : StableHlo.after hostOps1_1 G (Proc.devRef .tc main_v18)
    = (Host.scatterAdd scatter_S100000x256_S800000x1_S800000x256_1_0_0_1
        (broadcastInDim S100000x256 ![] Facts₀.bcast_S_S100000x256 (constant (F := Ideal) S_ .f32 0x00000000#32))
        (broadcastInDim S800000x1 ![0] Facts₀.bcast_S800000_S800000x1_0 (G (Proc.devRef .tc main_v3) : IVec S800000 32))
        (G (Proc.devRef .tc main_v15) : FVec Ideal S800000x256 .f32) : FVec Ideal S100000x256 .f32) := by
  after_results_simp

end Stretches

/-! ## The boundaries' contents -/

variable (m : (ℓ : Loc nD τ sig) → Buf (Elt Ideal) ℓ) (ρ : Dev nD → PrngReg)

set_option maxHeartbeats 4000000 in
/-- After the first stretch: the raw source vector. -/
theorem W1_v1 (c : Dev nD) : W1 m ρ c (Proc.devRef .tc main_v1) = srcRaw (m ((c : Thread nD τ).loc main_arg1)) := by
  show StableHlo.after hostOps0 (W0 m ρ c) (Proc.devRef .tc main_v1) = _
  after_results_simp
  rfl

set_option maxHeartbeats 4000000 in
/-- After the first stretch the node features are untouched. -/
theorem W1_arg0 (c : Dev nD) : W1 m ρ c (Proc.devRef .tc main_arg0) = m ((c : Thread nD τ).loc main_arg0) := by
  show StableHlo.after hostOps0 (W0 m ρ c) (Proc.devRef .tc main_arg0) = _
  after_results_simp

set_option maxHeartbeats 4000000 in
/-- After the second stretch: the raw destination vector. -/
theorem W2_v3 (c : Dev nD) : W2 m ρ c (Proc.devRef .tc main_v3) = dstRaw (m ((c : Thread nD τ).loc main_arg1)) := by
  show StableHlo.after hostOps0_1 (StableHlo.after hostOps0 (W0 m ρ c)) (Proc.devRef .tc main_v3) = _
  after_results_simp
  rfl

/-- After the second stretch: the masked gather of the node features. -/
theorem W2_v9 (c : Dev nD) :
    W2 m ρ c (Proc.devRef .tc main_v9) = takeRows128 (m ((c : Thread nD τ).loc main_arg0)) (m ((c : Thread nD τ).loc main_arg1)) := by
  show StableHlo.after hostOps0_1 (W1 m ρ c) (Proc.devRef .tc main_v9) = _
  rw [take_v9 (W1 m ρ c), W1_arg0, W1_v1, take128Of_raw]

/-- The first call's neighbour-sum operand. -/
theorem V3_v12 (c : Dev nD) :
    V3 m ρ c main_v12 = aggTake128 (m ((c : Thread nD τ).loc main_arg0)) (m ((c : Thread nD τ).loc main_arg1)) := by
  show StableHlo.after hostOps0_2 (W2 m ρ c) (Proc.devRef .tc main_v12) = _
  rw [scatter_v12 (W2 m ρ c), W2_v3, W2_v9]
  rfl

set_option maxHeartbeats 4000000 in
/-- The count column. -/
theorem V3_v8 (c : Dev nD) : V3 m ρ c main_v8 = cntCol (m ((c : Thread nD τ).loc main_arg1)) := by
  show StableHlo.after hostOps0_2 (StableHlo.after hostOps0_1 (StableHlo.after hostOps0 (W0 m ρ c))) (Proc.devRef .tc main_v8) = _
  after_results_simp
  rfl

set_option maxHeartbeats 4000000 in
/-- The first bias as a row. -/
theorem V3_v13 (c : Dev nD) : V3 m ρ c main_v13 = biasRow256 (m ((c : Thread nD τ).loc main_arg3)) := by
  show StableHlo.after hostOps0_2 (StableHlo.after hostOps0_1 (StableHlo.after hostOps0 (W0 m ρ c))) (Proc.devRef .tc main_v13) = _
  after_results_simp
  rfl

set_option maxHeartbeats 4000000 in
/-- At the first call's entry an argument is as launched. -/
theorem V3_arg0 (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  after_results_simp
set_option maxHeartbeats 4000000 in
theorem V3_arg2 (c : Dev nD) : V3 m ρ c main_arg2 = m ((c : Thread nD τ).loc main_arg2) := by
  show StableHlo.after hostOps0_2 (StableHlo.after hostOps0_1 (StableHlo.after hostOps0 (W0 m ρ c))) (Proc.devRef .tc main_arg2) = _
  after_results_simp
set_option maxHeartbeats 4000000 in
theorem V3_arg4 (c : Dev nD) : V3 m ρ c main_arg4 = m ((c : Thread nD τ).loc main_arg4) := by
  show StableHlo.after hostOps0_2 (StableHlo.after hostOps0_1 (StableHlo.after hostOps0 (W0 m ρ c))) (Proc.devRef .tc main_arg4) = _
  after_results_simp
set_option maxHeartbeats 4000000 in
theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp
set_option maxHeartbeats 4000000 in
theorem W3_arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp
set_option maxHeartbeats 4000000 in
theorem W3_arg7 (c : Dev nD) : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp
set_option maxHeartbeats 4000000 in
/-- At the first call's entry the raw source vector is still there … -/
theorem W3_v1 (c : Dev nD) : W3 m ρ c (Proc.devRef .tc main_v1) = srcRaw (m ((c : Thread nD τ).loc main_arg1)) := by
  show StableHlo.after hostOps0_2 (StableHlo.after hostOps0_1 (StableHlo.after hostOps0 (W0 m ρ c))) (Proc.devRef .tc main_v1) = _
  after_results_simp
  rfl
set_option maxHeartbeats 4000000 in
/-- … and so is the raw destination vector. -/
theorem W3_v3 (c : Dev nD) : W3 m ρ c (Proc.devRef .tc main_v3) = dstRaw (m ((c : Thread nD τ).loc main_arg1)) := by
  show StableHlo.after hostOps0_2 (StableHlo.after hostOps0_1 (StableHlo.after hostOps0 (W0 m ρ c))) (Proc.devRef .tc main_v3) = _
  after_results_simp
  rfl

/-- The first call writes neither vector. -/
theorem W4_v1 (c : Dev nD) : W4 m ρ c (Proc.devRef .tc main_v1) = srcRaw (m ((c : Thread nD τ).loc main_arg1)) :=
  (W4_of_ne m ρ c main_v1 (by decide)).trans (W3_v1 m ρ c)
theorem W4_v3 (c : Dev nD) : W4 m ρ c (Proc.devRef .tc main_v3) = dstRaw (m ((c : Thread nD τ).loc main_arg1)) :=
  (W4_of_ne m ρ c main_v3 (by decide)).trans (W3_v3 m ρ c)
/-- After the first call its output array holds what its write-backs leave. -/
theorem W4_v14 (c : Dev nD) : W4 m ρ c (Proc.devRef .tc main_v14) = (dat0 (V3 m ρ) c).arrAt 6 cfg0.N := W4_arr m ρ c 6
/-- The count column is an input of the first call: it keeps its entry contents. -/
theorem W4_v8 (c : Dev nD) : W4 m ρ c (Proc.devRef .tc main_v8) = cntCol (m ((c : Thread nD τ).loc main_arg1)) :=
  (W4_arr m ρ c 2).trans (((dat0 (V3 m ρ) c).arrAt_in 2 rfl _).trans ((A_eq0 (V3 m ρ) c 2).trans (V3_v8 m ρ c)))

set_option maxHeartbeats 4000000 in
/-- After the fourth stretch the destination vector is still there. -/
theorem W5_v3 (c : Dev nD) : W5 m ρ c (Proc.devRef .tc main_v3) = dstRaw (m ((c : Thread nD τ).loc main_arg1)) := by
  show StableHlo.after hostOps1 (W4 m ρ c) (Proc.devRef .tc main_v3) = _
  after_results_simp
  exact W4_v3 m ρ c

/-- After the fourth stretch: the masked gather of the first call's output. -/
theorem W5_v15 (c : Dev nD) :
    W5 m ρ c (Proc.devRef .tc main_v15) = takeRows256 (W4 m ρ c (Proc.devRef .tc main_v14)) (m ((c : Thread nD τ).loc main_arg1)) := by
  show StableHlo.after hostOps1 (W4 m ρ c) (Proc.devRef .tc main_v15) = _
  rw [take_v15 (W4 m ρ c), W4_v1, take256Of_raw]

/-- The second call's neighbour-sum operand. -/
theorem V6_v18 (c : Dev nD) :
    V6 m ρ c main_v18 = aggTake256 (W4 m ρ c (Proc.devRef .tc main_v14)) (m ((c : Thread nD τ).loc main_arg1)) := by
  show StableHlo.after hostOps1_1 (W5 m ρ c) (Proc.devRef .tc main_v18) = _
  rw [scatter_v18 (W5 m ρ c), W5_v3, W5_v15]
  rfl

set_option maxHeartbeats 4000000 in
/-- The second call's node-feature operand is the first call's output array. -/
theorem V6_v14 (c : Dev nD) : V6 m ρ c main_v14 = W4 m ρ c (Proc.devRef .tc main_v14) := by
  show StableHlo.after hostOps1_1 (StableHlo.after hostOps1 (W4 m ρ c)) (Proc.devRef .tc main_v14) = _
  after_results_simp

set_option maxHeartbeats 4000000 in
/-- The same count column. -/
theorem V6_v8 (c : Dev nD) : V6 m ρ c main_v8 = cntCol (m ((c : Thread nD τ).loc main_arg1)) := by
  show StableHlo.after hostOps1_1 (StableHlo.after hostOps1 (W4 m ρ c)) (Proc.devRef .tc main_v8) = _
  after_results_simp
  exact W4_v8 m ρ c

set_option maxHeartbeats 4000000 in
theorem V6_arg5 (c : Dev nD) : V6 m ρ c main_arg5 = m ((c : Thread nD τ).loc main_arg5) := by
  show StableHlo.after hostOps1_1 (StableHlo.after hostOps1 (W4 m ρ c)) (Proc.devRef .tc main_arg5) = _
  after_results_simp
  exact (W4_of_ne m ρ c main_arg5 (by decide)).trans (W3_arg5 m ρ c)

set_option maxHeartbeats 4000000 in
theorem V6_arg7 (c : Dev nD) : V6 m ρ c main_arg7 = m ((c : Thread nD τ).loc main_arg7) := by
  show StableHlo.after hostOps1_1 (StableHlo.after hostOps1 (W4 m ρ c)) (Proc.devRef .tc main_arg7) = _
  after_results_simp
  exact (W4_of_ne m ρ c main_arg7 (by decide)).trans (W3_arg7 m ρ c)

set_option maxHeartbeats 4000000 in
/-- The second bias as a row. -/
theorem V6_v19 (c : Dev nD) : V6 m ρ c main_v19 = biasRow40 (m ((c : Thread nD τ).loc main_arg6)) := by
  show StableHlo.after hostOps1_1 (StableHlo.after hostOps1 (W4 m ρ c)) (Proc.devRef .tc main_v19) = _
  after_results_simp
  rw [(W4_of_ne m ρ c main_arg6 (by decide)).trans (W3_arg6 m ρ c)]
  rfl

end Cert.KernelIdeal.HostRead

end
-- ==== Proof.SrcInRange.lean ====
/-
  The source indices are in range, so the masked take is the plain gather.

  The edge list `ei : [2, E]` holds in row 0 the source node of each edge. The precondition's last conjunct says that
  every source index `s`, read as a signed integer, satisfies −N ≤ s < N with N = 100000 (`SrcOk`; decoded from the
  printed predicate in `srcOk_of_pre`: an `and`-reduction that is 1 met only 1s, and a signed compare that is 1 is an
  inequality of the signed readings). The wrapped index `w = s + N` if `s < 0`, else `s`, then satisfies 0 ≤ w ≤ N − 1: for
  s < 0 the sum s + N lies in [0, N) and does not wrap in 32 bits, for s ≥ 0 it is s itself. Hence both compares of the
  range test are 1 at every edge, their `and` reduced over the unit axis from the initial value 1 is 1 (`srcInRange_eq`),
  the select on that bit, broadcast along each row, always takes the gathered row (`takeRows128_eq`, `takeRows256_eq`),
  and the neighbour sums of the taken rows are those of the plain gather (`aggTake128_eq`, `aggTake256_eq`).
  The gather and the scatter-add are never opened: they are the same terms on both sides.
-/
import proofs.«408753_j14044543058087_1_alg».proof.Proof.HostStages
import proofs.«408753_j14044543058087_1_alg».proof.Proof.Gen.Pre_finite_inputs
import Idealize.ShloMosaic.Lib.ReduceAll
import Idealize.ShloMosaic.Lib.StableHlo.Predicate
import Idealize.ShloMosaic.Lib.ValueIdx
import Idealize.ShloMosaic.Lib.Pipeline.Value

noncomputable section

namespace Cert.KernelIdeal.Host

open Cert.KernelIdeal Cert.KernelIdeal.Facts₀ Cert.KernelIdeal.Facts Idealize.ShloMosaic Idealize.ShloMosaic.ValueIdx

/-- Every edge's source index, read as a signed integer, lies in [−100000, 100000). -/
def SrcOk (ei : IVec S2x800000 32) : Prop :=
  ∀ e : Fin 800000, -100000 ≤ (ei (ix2 (0 : Fin 2) e)).toInt ∧ (ei (ix2 (0 : Fin 2) e)).toInt < 100000

/-! ## An `and`-fold of ones -/

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A reduction by `and` from the initial value 1 of an array of ones is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1) (j : t.Idx) :
    Host.reduce IntOp.andi x init h hu j = 1#1 := by
  rw [Host.reduce_eq_foldl, hinit]
  exact foldl_andi_ones x hx _

/-! ## Row 0 of the edge list, read at an edge -/

/-- The slice of row 0 of a [2, E] array, reshaped to [E], reads at `e` the array at (0, e). -/
theorem row0_apply (ei : IVec S2x800000 32) (p₁ : S2x800000.Slices ![0, 0] S1x800000) (p₂ : S1x800000.ShapeCasts S800000)
    (e : Fin 800000) :
    shapeCast S800000 (extractStridedSlice S1x800000 ![0, 0] ei p₁) p₂ (ix1 e) = ei (ix2 (0 : Fin 2) e) := by
  rw [shapeCast_apply _ p₂ (ix1 e) (ix2 (0 : Fin 1) e)
    (by rw [Shape.rowMajor_val_two, Shape.rowMajor_val_one]; simp)]
  exact extractStridedSlice_apply _ _ p₁ _ _ (fun a => by
    match a with
    | ⟨0, _⟩ => rfl
    | ⟨1, _⟩ => simp)

/-- The source indices as the kernel reads them are row 0 of the edge list. -/
theorem srcRaw_apply (ei : IVec S2x800000 32) (e : Fin 800000) : srcRaw ei (ix1 e) = ei (ix2 (0 : Fin 2) e) :=
  row0_apply ei _ _ e

/-! ## The precondition's last conjunct, decoded -/

/-- The precondition holds only if every source index lies in [−N, N): its last conjunct is the `and`-reduction over
    all edges of (s ≥ −N) and (s < N), signed. -/
theorem srcOk_of_pre [Cert.Pre_finite_inputs.Facts] (a0 : FVec Ideal Cert.Pre_finite_inputs.S100000x128 .f32)
    (ei : IVec Cert.Pre_finite_inputs.S2x800000 32) (a2 : FVec Ideal Cert.Pre_finite_inputs.S128x256 .f32)
    (a3 : FVec Ideal Cert.Pre_finite_inputs.S256 .f32) (a4 : FVec Ideal Cert.Pre_finite_inputs.S128x256 .f32)
    (a5 : FVec Ideal Cert.Pre_finite_inputs.S256x40 .f32) (a6 : FVec Ideal Cert.Pre_finite_inputs.S40 .f32)
    (a7 : FVec Ideal Cert.Pre_finite_inputs.S256x40 .f32)
    (h : Cert.Pre_finite_inputs.fn (F := Ideal) a0 ei a2 a3 a4 a5 a6 a7 = fun _ => 1#1) : SrcOk ei := by
  intro e
  -- the rank-0 shape has one index
  haveI : Subsingleton Cert.Pre_finite_inputs.S_.Idx := ⟨fun _ _ => funext fun d => d.elim0⟩
  have h0 := congrFun h ix0
  -- the predicate is an `and` of the earlier conjuncts with the reduction of the range test
  unfold Cert.Pre_finite_inputs.fn Cert.Pre_finite_inputs.fn_part1 Cert.Pre_finite_inputs.fn_part2 at h0
  dsimp only at h0
  obtain ⟨-, h1⟩ := IntOp.andi_eq_one.1 h0
  have h2 := Host.reduce_andi_all _ _ _ _ _ h1 (ix1 e)
  obtain ⟨hge, hlt⟩ := IntOp.andi_eq_one.1 h2
  have hge' := IntOp.cmpi_sge.1 hge
  have hlt' := IntOp.cmpi_slt.1 hlt
  rw [row0_apply] at hge' hlt'
  have c1 : (4294867296#32 : BitVec 32).toInt = -100000 := by decide
  have c2 : (100000#32 : BitVec 32).toInt = 100000 := by decide
  exact ⟨c1 ▸ hge', c2 ▸ hlt'⟩

/-! ## The wrapped index is in [0, N − 1] -/

/-- A signed word in [−N, N), with N added where it is negative, lies in [0, N − 1] (N = 100000). -/
theorem wrap_range (s : BitVec 32) (h₁ : -100000 ≤ s.toInt) (h₂ : s.toInt < 100000) :
    0 ≤ (Scalar.select (IntOp.cmpi .slt s 0#32) (IntOp.addi s 100000#32) s).toInt ∧
      (Scalar.select (IntOp.cmpi .slt s 0#32) (IntOp.addi s 100000#32) s).toInt ≤ 99999 := by
  have c0 : (0#32 : BitVec 32).toInt = 0 := by decide
  have cN : (100000#32 : BitVec 32).toInt = 100000 := by decide
  by_cases hs : s.toInt < 0
  · have hc : IntOp.cmpi .slt s 0#32 = 1#1 := IntOp.cmpi_slt.2 (by rw [c0]; exact hs)
    rw [hc, select_one]
    have hadd : (IntOp.addi s 100000#32).toInt = s.toInt + 100000 := by
      rw [IntOp.addi, BitVec.toInt_add, cN]
      exact Int.bmod_eq_of_le (by omega) (by omega)
    rw [hadd]
    omega
  · have hc : IntOp.cmpi .slt s 0#32 = 0#1 :=
      eq_zero_of_ne_one (fun hc => hs (by have := IntOp.cmpi_slt.1 hc; rwa [c0] at this))
    rw [hc, select_zero]
    omega

/-- Under `SrcOk` every wrapped source index lies in [0, N − 1]. -/
theorem srcWrapped_range (ei : IVec S2x800000 32) (h : SrcOk ei) (k : S800000.Idx) :
    0 ≤ (srcWrapped ei k).toInt ∧ (srcWrapped ei k).toInt ≤ 99999 := by
  obtain ⟨e, rfl⟩ : ∃ e : Fin 800000, k = ix1 e := ⟨k 0, eq_ix1 k⟩
  have hw : srcWrapped ei (ix1 e)
      = Scalar.select (IntOp.cmpi .slt (srcRaw ei (ix1 e)) 0#32) (IntOp.addi (srcRaw ei (ix1 e)) 100000#32)
          (srcRaw ei (ix1 e)) := rfl
  rw [hw, srcRaw_apply]
  exact wrap_range _ (h e).1 (h e).2

/-- The same of the column of start indices. -/
theorem srcCol_range (ei : IVec S2x800000 32) (h : SrcOk ei) (i : S800000x1.Idx) :
    0 ≤ (srcCol ei i).toInt ∧ (srcCol ei i).toInt ≤ 99999 := by
  unfold srcCol broadcastInDim
  exact srcWrapped_range ei h _

/-! ## The mask is all ones -/

/-- Every edge's range bit is 1: both compares hold of the wrapped index, and the reduction over the unit axis starts at 1. -/
theorem srcInRange_eq (ei : IVec S2x800000 32) (h : SrcOk ei) : srcInRange ei = fun _ => 1#1 := by
  funext j
  unfold srcInRange
  refine reduce_andi_ones _ _ _ _ (fun i => ?_) rfl j
  have c0 : (0#32 : BitVec 32).toInt = 0 := by decide
  have cM : (99999#32 : BitVec 32).toInt = 99999 := by decide
  obtain ⟨hlo, hhi⟩ := srcCol_range ei h i
  show IntOp.andi (IntOp.cmpi .sge (srcCol ei i) 0#32) (IntOp.cmpi .sle (srcCol ei i) 99999#32) = 1#1
  exact IntOp.andi_eq_one.2 ⟨IntOp.cmpi_sge.2 (by rw [c0]; exact hlo), IntOp.cmpi_sle.2 (by rw [cM]; exact hhi)⟩

/-! ## The take is the gather, and the neighbour sums agree -/

/-- With every range bit 1 the select takes the gathered row everywhere. -/
theorem takeRows128_eq (x : FVec Ideal S100000x128 .f32) (ei : IVec S2x800000 32) (h : SrcOk ei) :
    takeRows128 x ei = Host.gather gather_S100000x128_S800000x1_S800000x128_1_0_n_n_0_1_1128 x (srcCol ei) := by
  unfold takeRows128
  rw [srcInRange_eq ei h]
  funext j
  rw [select_apply]
  show Scalar.select 1#1 _ _ = _
  rw [select_one]

/-- The same for a 256-column array. -/
theorem takeRows256_eq (x : FVec Ideal S100000x256 .f32) (ei : IVec S2x800000 32) (h : SrcOk ei) :
    takeRows256 x ei = Host.gather gather_S100000x256_S800000x1_S800000x256_1_0_n_n_0_1_1256 x (srcCol ei) := by
  unfold takeRows256
  rw [srcInRange_eq ei h]
  funext j
  rw [select_apply]
  show Scalar.select 1#1 _ _ = _
  rw [select_one]

/-- The neighbour sums of the taken rows are those of the gathered rows. -/
theorem aggTake128_eq (x : FVec Ideal S100000x128 .f32) (ei : IVec S2x800000 32) (h : SrcOk ei) :
    aggTake128 x ei = agg128 x ei := by
  unfold aggTake128 agg128
  rw [takeRows128_eq x ei h]

/-- The same for a 256-column array. -/
theorem aggTake256_eq (x : FVec Ideal S100000x256 .f32) (ei : IVec S2x800000 32) (h : SrcOk ei) :
    aggTake256 x ei = agg256 x ei := by
  unfold aggTake256 agg256
  rw [takeRows256_eq x ei h]

end Cert.KernelIdeal.Host

end
-- ==== Proof.Spec.lean ====
/-
  The result both programs compute, as one function of the arguments.

  `hidden`: the rectified first layer — the neighbour sums of the node features (plain gather, scatter-add), divided by
  the clipped edge counts, through the first pair of weight matrices, plus the first bias. `result`: the second layer
  on the hidden features, with the same edge counts, the second pair of weight matrices and the second bias, not
  rectified.
-/
import proofs.«408753_j14044543058087_1_alg».proof.Proof.HostStages
import proofs.«408753_j14044543058087_1_alg».proof.Proof.LibSageLayer

noncomputable section

namespace Cert.Spec

open Cert.KernelIdeal Cert.KernelIdeal.Host Cert.LibSageLayer Idealize.ShloMosaic

/-- The hidden features: the rectified first layer. -/
def hidden (a0 : FVec Ideal S100000x128 .f32) (ei : IVec S2x800000 32) (a2 : FVec Ideal S128x256 .f32) (a3 : FVec Ideal S256 .f32)
    (a4 : FVec Ideal S128x256 .f32) : FVec Ideal S100000x256 .f32 :=
  relu (layer (n := 100000) (d := 128) (h := 256) (agg128 a0 ei) a0 (cntCol ei) a2 a4 (biasRow256 a3))

/-- The result: the second layer on the hidden features. -/
def result (a0 : FVec Ideal S100000x128 .f32) (ei : IVec S2x800000 32) (a2 : FVec Ideal S128x256 .f32) (a3 : FVec Ideal S256 .f32)
    (a4 : FVec Ideal S128x256 .f32) (a5 : FVec Ideal S256x40 .f32) (a6 : FVec Ideal S40 .f32) (a7 : FVec Ideal S256x40 .f32) :
    FVec Ideal S100000x40 .f32 :=
  layer (n := 100000) (d := 256) (h := 40) (agg256 (hidden a0 ei a2 a3 a4) ei) (hidden a0 ei a2 a3 a4) (cntCol ei) a5 a7 (biasRow40 a6)

end Cert.Spec

end
-- ==== Proof.KernelValue.lean ====
/-
  The kernel's result array is the specification's `result` of the arguments, when every source index is in range.

  The last boundary's contents at the result buffer are what the second pallas_call's write-backs leave: the layer of
  the arrays that call finds, which are the neighbour sums of the first call's output (through the masked gather: the
  plain one when every source index is in range), that output itself, the count column, the second pair of weight
  matrices and the second bias as a row. The first call's output is likewise the rectified layer of the arrays it
  finds. The body's arithmetic is the layer of its blocks.
-/
import proofs.«408753_j14044543058087_1_alg».proof.Proof.KernelRun
import proofs.«408753_j14044543058087_1_alg».proof.Proof.Region0
import proofs.«408753_j14044543058087_1_alg».proof.Proof.Region1
import proofs.«408753_j14044543058087_1_alg».proof.Proof.Payload
import proofs.«408753_j14044543058087_1_alg».proof.Proof.HostRead
import proofs.«408753_j14044543058087_1_alg».proof.Proof.SrcInRange
import proofs.«408753_j14044543058087_1_alg».proof.Proof.Spec

set_option maxRecDepth 16384

noncomputable section

namespace Cert.KernelValue

open Cert.KernelIdeal Cert.KernelIdeal.Gen Cert.KernelIdeal.Host Cert.KernelIdeal.HostRead Cert.LibSageLayer
open Idealize.ShloMosaic Idealize.ShloMosaic.TcCoe Idealize.SL.Sem

variable (m : (ℓ : Loc nD τ sig) → Buf (Elt Ideal) ℓ) (ρ : Dev nD → PrngReg)

/-- The first call's output array: the specification's hidden features. -/
theorem hidden_eq (c : Dev nD) (hok : SrcOk (m ((c : Thread nD τ).loc main_arg1))) :
    (dat0 (V3 m ρ) c).arrAt 6 cfg0.N
      = Cert.Spec.hidden (m ((c : Thread nD τ).loc main_arg0)) (m ((c : Thread nD τ).loc main_arg1)) (m ((c : Thread nD τ).loc main_arg2))
          (m ((c : Thread nD τ).loc main_arg3)) (m ((c : Thread nD τ).loc main_arg4)) := by
  rw [Cert.KernelIdeal.Region0.final (V3 m ρ) Cert.KernelIdeal.Payload.pay0_eq c]
  show relu (layer (n := 100000) (d := 128) (h := 256) (V3 m ρ c main_v12) (V3 m ρ c main_arg0) (V3 m ρ c main_v8) (V3 m ρ c main_arg2)
    (V3 m ρ c main_arg4) (V3 m ρ c main_v13)) = _
  rw [V3_v12, V3_v8, V3_v13, V3_arg0, V3_arg2, V3_arg4, aggTake128_eq _ _ hok]
  rfl

/-- The result buffer at the last boundary: the specification's result. -/
theorem result_eq (c : Dev nD) (hok : SrcOk (m ((c : Thread nD τ).loc main_arg1))) :
    W7 m ρ c (Proc.devRef .tc main_v20)
      = Cert.Spec.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  rw [show W7 m ρ c (Proc.devRef .tc main_v20) = (dat1 (V6 m ρ) c).arrAt 6 cfg1.N from W7_arr m ρ c 6,
    Cert.KernelIdeal.Region1.final (V6 m ρ) Cert.KernelIdeal.Payload.pay1_eq c]
  show layer (n := 100000) (d := 256) (h := 40) (V6 m ρ c main_v18) (V6 m ρ c main_v14) (V6 m ρ c main_v8) (V6 m ρ c main_arg5)
    (V6 m ρ c main_arg7) (V6 m ρ c main_v19) = _
  rw [V6_v18, V6_v14, V6_v8, V6_arg5, V6_arg7, V6_v19, W4_v14, hidden_eq m ρ c hok, aggTake256_eq _ _ hok]
  rfl

/-- The kernel's run with its result named: the specification's result of the arguments, the arguments unchanged. -/
theorem run (hok : ∀ c : Dev nD, SrcOk (m ((c : Thread nD τ).loc main_arg1))) :
    θ_run defs (onTc (τ := τ) (main (F := Ideal))) ⟨m, fun _ => 0, ρ⟩ (fun r => ∀ c : Dev nD,
      r.2.mem ((c.tc : Thread nD τ).loc main_v20)
          = Cert.Spec.result (m ((c : Thread nD τ).loc main_arg0)) (m ((c : Thread nD τ).loc main_arg1)) (m ((c : Thread nD τ).loc main_arg2))
              (m ((c : Thread nD τ).loc main_arg3)) (m ((c : Thread nD τ).loc main_arg4)) (m ((c : Thread nD τ).loc main_arg5))
              (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c (hok c)), (h c).2⟩)
    (Cert.KernelIdeal.Kept.run_kept (F := Ideal) m ρ)

end Cert.KernelValue

end
-- ==== Proof.RefLayers.lean ====
/-
  The reference program's two dense layers are the layer specification, entry by entry, on the extended reals.

  The reference computes, for a node p and an output feature q,

      max( ( Σ_k (agg[p,k] / max(cnt[p], 1)) · Wl[k,q]  +  b[q] )  +  Σ_k x[p,k] · Wr[k,q] ,  0 )

  for its first layer, and the same expression without the outer maximum (on the first layer's result, with the second
  layer's weights) for its second. Here agg is the per-node sum of the neighbours' features and cnt the per-node number
  of incoming edges; both are left as the values the program computes and are never opened. The divisor max(cnt[p], 1)
  reaches the quotient through two broadcasts (a vector to a column, the column to the full width); the bias reaches the
  sum through two broadcasts as well (a vector to a row, the row to the full height). Reading each broadcast at an
  index identifies the divisor with the count column's entry (p, 0) and the bias with the bias row's entry (0, q).

  What is then left between the reference and the specification is the order of the three summands: the reference adds
  the bias before the node's own term, the specification after it. Addition on the extended reals is commutative and
  associative, so the two agree.

  The second edge count is the same expression as the first, printed a second time.
-/
import proofs.«408753_j14044543058087_1_alg».proof.Proof.Gen.ReferenceIdeal.Read
import proofs.«408753_j14044543058087_1_alg».proof.Proof.LibSageLayer
import Idealize.ShloMosaic.Lib.Pipeline.Value
import Idealize.ShloMosaic.Lib.ValueIdx
import Idealize.ShloMosaic.PureOps.Ideal

noncomputable section

namespace Cert.ReferenceIdeal.Layers

open Cert.ReferenceIdeal Cert.ReferenceIdeal.Read Cert.LibSageLayer Idealize.ShloMosaic Idealize.ShloMosaic.ValueIdx

/-- A vector recast as a column, read at row p: the vector's entry p. -/
theorem col_apply {n : ℕ} {α : Type} (v : (⟨1, ![n]⟩ : Shape).Idx → α)
    (hc : (⟨1, ![n]⟩ : Shape).ShapeCasts ⟨2, ![n, 1]⟩) (p : Fin n) :
    shapeCast ⟨2, ![n, 1]⟩ v hc (ix2 p (0 : Fin 1)) = v (ix1 p) := by
  refine shapeCast_apply v hc _ (ix1 p) ?_
  rw [Shape.rowMajor_val_one, Shape.rowMajor_val_two]
  show p.val = p.val * 1 + 0
  omega

/-- A vector recast as a row, read at column q: the vector's entry q. -/
theorem row_apply {n : ℕ} {α : Type} (v : (⟨1, ![n]⟩ : Shape).Idx → α)
    (hb : (⟨1, ![n]⟩ : Shape).ShapeCasts ⟨2, ![1, n]⟩) (q : Fin n) :
    shapeCast ⟨2, ![1, n]⟩ v hb (ix2 (0 : Fin 1) q) = v (ix1 q) := by
  refine shapeCast_apply v hb _ (ix1 q) ?_
  rw [Shape.rowMajor_val_one, Shape.rowMajor_val_two]
  show q.val = 0 * n + q.val
  omega

variable (x0 : (⟨S100000x128, .f32⟩ : BufTy).Contents (Elt Ideal)) (x1 : (⟨S2x800000, .i32⟩ : BufTy).Contents (Elt Ideal))
  (x2 : (⟨S128x256, .f32⟩ : BufTy).Contents (Elt Ideal)) (x3 : (⟨S256, .f32⟩ : BufTy).Contents (Elt Ideal))
  (x4 : (⟨S128x256, .f32⟩ : BufTy).Contents (Elt Ideal)) (x5 : (⟨S256x40, .f32⟩ : BufTy).Contents (Elt Ideal))
  (x6 : (⟨S40, .f32⟩ : BufTy).Contents (Elt Ideal)) (x7 : (⟨S256x40, .f32⟩ : BufTy).Contents (Elt Ideal))

/-- The second edge count is the first: the same operations on the same operands. -/
theorem cnt_again : val_main_v43 (F := Ideal) x1 = val_main_v17 (F := Ideal) x1 := by
  unfold val_main_v43 val_main_v17 val_main_v41 val_main_v15 val_main_v42 val_main_v16 val_main_v40 val_main_v14
    val_main_cst_8 val_main_cst_2 val_main_cst_7 val_main_cst_1
  rfl

/-- The rectifier read at an index. -/
theorem relu_apply {s : Shape} (v : s.Idx → EReal) (i : s.Idx) : relu v i = max (v i) zero := rfl

/-! ## The first layer -/

/-- The first layer's quotient at (p, k): the neighbour sum over the larger of the edge count of p and one. -/
theorem quot1_apply (p : Fin 100000) (k : Fin 128) :
    val_main_v22 (F := Ideal) x0 x1 (ix2 p k)
      = Ideal.div (val_main_v13 (F := Ideal) x0 x1 (ix2 p k)) (max (val_main_v17 (F := Ideal) x1 (ix1 p)) one) := by
  have e : idx_main_v20 (idx_main_v21 (ix2 p k)) = ix1 p :=
    funext fun a => Fin.ext (by match a with | ⟨0, _⟩ => rfl)
  rw [val_main_v22_apply, val_main_v21_apply, val_main_v20_apply, val_main_v19_apply, val_main_v18_apply,
    val_main_cst_3_apply, e]
  generalize val_main_v13 (F := Ideal) x0 x1 = A
  generalize val_main_v17 (F := Ideal) x1 = C
  rfl

/-- The first layer's bias, broadcast to full height, at (p, q): the bias vector's entry q. -/
theorem bias1_apply (p : Fin 100000) (q : Fin 256) :
    val_main_v25 (F := Ideal) x3 (ix2 p q) = x3 (ix1 q) := by
  have e : idx_main_v24 (idx_main_v25 (ix2 p q)) = ix1 q :=
    funext fun a => Fin.ext (by match a with | ⟨0, _⟩ => rfl)
  rw [val_main_v25_apply, val_main_v24_apply, e]

/-- The first layer's neighbour term at (p, q). -/
theorem dotl1_apply (p : Fin 100000) (q : Fin 256) :
    val_main_v23 (F := Ideal) x0 x1 x2 (ix2 p q)
      = ∑ k : Fin 128, Ideal.div (val_main_v13 (F := Ideal) x0 x1 (ix2 p k))
          (max (val_main_v17 (F := Ideal) x1 (ix1 p)) one) * x2 (ix2 k q) := by
  rw [val_main_v23_apply]
  refine Finset.sum_congr rfl fun k _ => ?_
  have el : lidx_main_v23 (ix2 p q) k = ix2 p k :=
    funext fun a => Fin.ext (by match a with | ⟨0, _⟩ => rfl | ⟨1, _⟩ => rfl)
  have er : ridx_main_v23 (ix2 p q) k = ix2 k q :=
    funext fun a => Fin.ext (by match a with | ⟨0, _⟩ => rfl | ⟨1, _⟩ => rfl)
  rw [el, er, quot1_apply]

/-- The first layer's own term at (p, q). -/
theorem dotr1_apply (p : Fin 100000) (q : Fin 256) :
    val_main_v27 (F := Ideal) x0 x4 (ix2 p q) = ∑ k : Fin 128, x0 (ix2 p k) * x4 (ix2 k q) := by
  rw [val_main_v27_apply]
  refine Finset.sum_congr rfl fun k _ => ?_
  have el : lidx_main_v27 (ix2 p q) k = ix2 p k :=
    funext fun a => Fin.ext (by match a with | ⟨0, _⟩ => rfl | ⟨1, _⟩ => rfl)
  have er : ridx_main_v27 (ix2 p q) k = ix2 k q :=
    funext fun a => Fin.ext (by match a with | ⟨0, _⟩ => rfl | ⟨1, _⟩ => rfl)
  rw [el, er]

/-- The reference's first layer is the rectified layer specification on the neighbour sums, the node features, the edge
    counts as a column, the two weight matrices and the bias as a row. -/
theorem layer1_eq (hc : S100000.ShapeCasts S100000x1) (hb : S256.ShapeCasts S1x256) :
    val_main_v29 (F := Ideal) x0 x1 x2 x3 x4
      = relu (layer (n := 100000) (d := 128) (h := 256) (val_main_v13 (F := Ideal) x0 x1) x0
          (shapeCast S100000x1 (val_main_v17 (F := Ideal) x1) hc) x2 x4 (shapeCast S1x256 x3 hb)) := by
  funext i
  obtain ⟨p, q, rfl⟩ : ∃ (p : Fin 100000) (q : Fin 256), i = ix2 p q := ⟨i 0, i 1, eq_ix2 i⟩
  rw [relu_apply, layer_apply, col_apply, row_apply, val_main_v29_apply, val_main_v28_apply, val_main_v26_apply,
    dotl1_apply, bias1_apply, dotr1_apply, val_main_call0_v0_apply, val_main_call0_cst_apply]
  exact congrArg (fun t => max t zero) (add_bias_middle _ _ _)

/-! ## The second layer -/

/-- The second layer's quotient at (p, k). -/
theorem quot2_apply (p : Fin 100000) (k : Fin 256) :
    val_main_v48 (F := Ideal) x0 x1 x2 x3 x4 (ix2 p k)
      = Ideal.div (val_main_v39 (F := Ideal) x0 x1 x2 x3 x4 (ix2 p k))
          (max (val_main_v43 (F := Ideal) x1 (ix1 p)) one) := by
  have e : idx_main_v46 (idx_main_v47 (ix2 p k)) = ix1 p :=
    funext fun a => Fin.ext (by match a with | ⟨0, _⟩ => rfl)
  rw [val_main_v48_apply, val_main_v47_apply, val_main_v46_apply, val_main_v45_apply, val_main_v44_apply,
    val_main_cst_9_apply, e]
  generalize val_main_v39 (F := Ideal) x0 x1 x2 x3 x4 = A
  generalize val_main_v43 (F := Ideal) x1 = C
  rfl

/-- The second layer's bias, broadcast to full height, at (p, q): the bias vector's entry q. -/
theorem bias2_apply (p : Fin 100000) (q : Fin 40) :
    val_main_v51 (F := Ideal) x6 (ix2 p q) = x6 (ix1 q) := by
  have e : idx_main_v50 (idx_main_v51 (ix2 p q)) = ix1 q :=
    funext fun a => Fin.ext (by match a with | ⟨0, _⟩ => rfl)
  rw [val_main_v51_apply, val_main_v50_apply, e]

/-- The second layer's neighbour term at (p, q). -/
theorem dotl2_apply (p : Fin 100000) (q : Fin 40) :
    val_main_v49 (F := Ideal) x0 x1 x2 x3 x4 x5 (ix2 p q)
      = ∑ k : Fin 256, Ideal.div (val_main_v39 (F := Ideal) x0 x1 x2 x3 x4 (ix2 p k))
          (max (val_main_v43 (F := Ideal) x1 (ix1 p)) one) * x5 (ix2 k q) := by
  rw [val_main_v49_apply]
  refine Finset.sum_congr rfl fun k _ => ?_
  have el : lidx_main_v49 (ix2 p q) k = ix2 p k :=
    funext fun a => Fin.ext (by match a with | ⟨0, _⟩ => rfl | ⟨1, _⟩ => rfl)
  have er : ridx_main_v49 (ix2 p q) k = ix2 k q :=
    funext fun a => Fin.ext (by match a with | ⟨0, _⟩ => rfl | ⟨1, _⟩ => rfl)
  rw [el, er, quot2_apply]

/-- The second layer's own term at (p, q): the first layer's result through the second own-term weights. -/
theorem dotr2_apply (p : Fin 100000) (q : Fin 40) :
    val_main_v53 (F := Ideal) x0 x1 x2 x3 x4 x7 (ix2 p q)
      = ∑ k : Fin 256, val_main_v29 (F := Ideal) x0 x1 x2 x3 x4 (ix2 p k) * x7 (ix2 k q) := by
  rw [val_main_v53_apply]
  refine Finset.sum_congr rfl fun k _ => ?_
  have el : lidx_main_v53 (ix2 p q) k = ix2 p k :=
    funext fun a => Fin.ext (by match a with | ⟨0, _⟩ => rfl | ⟨1, _⟩ => rfl)
  have er : ridx_main_v53 (ix2 p q) k = ix2 k q :=
    funext fun a => Fin.ext (by match a with | ⟨0, _⟩ => rfl | ⟨1, _⟩ => rfl)
  rw [el, er]

/-- The reference's second layer is the layer specification (no rectifier) on the neighbour sums of the first layer's
    result, that result, the edge counts as a column, the second pair of weight matrices and the second bias as a row. -/
theorem layer2_eq (hc : S100000.ShapeCasts S100000x1) (hb : S40.ShapeCasts S1x40) :
    val_main_v54 (F := Ideal) x0 x1 x2 x3 x4 x5 x6 x7
      = layer (n := 100000) (d := 256) (h := 40) (val_main_v39 (F := Ideal) x0 x1 x2 x3 x4)
          (val_main_v29 (F := Ideal) x0 x1 x2 x3 x4) (shapeCast S100000x1 (val_main_v43 (F := Ideal) x1) hc) x5 x7
          (shapeCast S1x40 x6 hb) := by
  funext i
  obtain ⟨p, q, rfl⟩ : ∃ (p : Fin 100000) (q : Fin 40), i = ix2 p q := ⟨i 0, i 1, eq_ix2 i⟩
  rw [layer_apply, col_apply, row_apply, val_main_v54_apply, val_main_v52_apply, dotl2_apply, bias2_apply,
    dotr2_apply]
  exact add_bias_middle _ _ _

end Cert.ReferenceIdeal.Layers

end
-- ==== Proof.StageBridge.lean ====
/-
  The reference's opaque stages are the kernel's named host values.

  Both programs slice the edge list into source and destination rows, wrap a negative source index by the number of
  nodes, gather the source rows, and add them into their destination nodes; both count the incoming edges of each node
  by adding ones into the destination nodes. The operations and their dimension numbers are the same on the two
  sides, so the values are the same terms: nothing is computed here, the two spellings are identified.
-/
import proofs.«408753_j14044543058087_1_alg».proof.Proof.Gen.ReferenceIdeal.Read
import proofs.«408753_j14044543058087_1_alg».proof.Proof.HostStages

set_option maxRecDepth 16384

noncomputable section

namespace Cert.StageBridge

open Idealize.ShloMosaic
open Cert.ReferenceIdeal.Read

/-- The reference's start-index column is the kernel's: the wrapped source indices. -/
theorem src_col (x1 : IVec Cert.KernelIdeal.S2x800000 32) :
    val_main_v9 (F := Ideal) x1 = Cert.KernelIdeal.Host.srcCol x1 := by
  unfold val_main_v9 val_main_v8 val_main_v7 val_main_v6 val_main_v5 val_main_v4 val_main_v1 val_main_v0 val_main_c val_main_c_0
  unfold Cert.KernelIdeal.Host.srcCol Cert.KernelIdeal.Host.srcWrapped Cert.KernelIdeal.Host.srcRaw
  rfl

/-- The reference's scatter-index column is the kernel's: the destination indices. -/
theorem dst_col (x1 : IVec Cert.KernelIdeal.S2x800000 32) :
    val_main_v12 (F := Ideal) x1 = Cert.KernelIdeal.Host.dstCol x1 := by
  unfold val_main_v12 val_main_v3 val_main_v2
  unfold Cert.KernelIdeal.Host.dstCol Cert.KernelIdeal.Host.dstRaw
  rfl

/-- The reference's neighbour sums of the node features are the kernel's with the plain gather. -/
theorem agg1 (x0 : FVec Ideal Cert.KernelIdeal.S100000x128 .f32) (x1 : IVec Cert.KernelIdeal.S2x800000 32) :
    val_main_v13 (F := Ideal) x0 x1 = Cert.KernelIdeal.Host.agg128 x0 x1 := by
  unfold val_main_v13 val_main_v10 val_main_v11 val_main_cst
  rw [src_col, dst_col]
  unfold Cert.KernelIdeal.Host.agg128
  rfl

/-- The second layer's start-index column is the same wrapped source column. -/
theorem src_col' (x1 : IVec Cert.KernelIdeal.S2x800000 32) :
    val_main_v35 (F := Ideal) x1 = Cert.KernelIdeal.Host.srcCol x1 := by
  unfold val_main_v35 val_main_v34 val_main_v33 val_main_v32 val_main_v31 val_main_v30 val_main_v1 val_main_v0 val_main_c_4 val_main_c_5
  unfold Cert.KernelIdeal.Host.srcCol Cert.KernelIdeal.Host.srcWrapped Cert.KernelIdeal.Host.srcRaw
  rfl

/-- The second layer's scatter-index column is the same destination column. -/
theorem dst_col' (x1 : IVec Cert.KernelIdeal.S2x800000 32) :
    val_main_v38 (F := Ideal) x1 = Cert.KernelIdeal.Host.dstCol x1 := by
  unfold val_main_v38 val_main_v3 val_main_v2
  unfold Cert.KernelIdeal.Host.dstCol Cert.KernelIdeal.Host.dstRaw
  rfl

/-- The reference's neighbour sums of the hidden features are the kernel's with the plain gather. -/
theorem agg2 (x0 : FVec Ideal Cert.KernelIdeal.S100000x128 .f32) (x1 : IVec Cert.KernelIdeal.S2x800000 32)
    (x2 : FVec Ideal Cert.KernelIdeal.S128x256 .f32) (x3 : FVec Ideal Cert.KernelIdeal.S256 .f32) (x4 : FVec Ideal Cert.KernelIdeal.S128x256 .f32) :
    val_main_v39 (F := Ideal) x0 x1 x2 x3 x4 = Cert.KernelIdeal.Host.agg256 (val_main_v29 (F := Ideal) x0 x1 x2 x3 x4) x1 := by
  unfold val_main_v39 val_main_v36 val_main_v37 val_main_cst_6
  rw [src_col', dst_col']
  generalize val_main_v29 (F := Ideal) x0 x1 x2 x3 x4 = hfeat
  unfold Cert.KernelIdeal.Host.agg256
  rfl

/-- The reference's edge counts, viewed as a column, are the kernel's count column. -/
theorem cnt_col (x1 : IVec Cert.KernelIdeal.S2x800000 32) :
    shapeCast Cert.KernelIdeal.S100000x1 (val_main_v17 (F := Ideal) x1) Cert.KernelIdeal.Facts₀.shapeCasts_S100000_S100000x1
      = Cert.KernelIdeal.Host.cntCol x1 := by
  unfold val_main_v17 val_main_v16 val_main_v15 val_main_v14 val_main_cst_1 val_main_cst_2 val_main_v3 val_main_v2
  unfold Cert.KernelIdeal.Host.cntCol Cert.KernelIdeal.Host.dstCol Cert.KernelIdeal.Host.dstRaw
  rfl

end Cert.StageBridge

end
-- ==== Proof.RefValue.lean ====
/-
  The reference's result is the specification's `result` of the arguments.

  Its two dense layers are the specification's `layer` over its own opaque stages (the neighbour sums and the edge
  counts), and those stages are the named host values the specification is written over.
-/
import proofs.«408753_j14044543058087_1_alg».proof.Proof.RefLayers
import proofs.«408753_j14044543058087_1_alg».proof.Proof.StageBridge
import proofs.«408753_j14044543058087_1_alg».proof.Proof.Spec

set_option maxRecDepth 16384

noncomputable section

namespace Cert.RefValue

open Idealize.ShloMosaic
open Cert.ReferenceIdeal.Read Cert.ReferenceIdeal.Layers

variable (x0 : FVec Ideal Cert.KernelIdeal.S100000x128 .f32) (x1 : IVec Cert.KernelIdeal.S2x800000 32)
  (x2 x4 : FVec Ideal Cert.KernelIdeal.S128x256 .f32) (x3 : FVec Ideal Cert.KernelIdeal.S256 .f32)
  (x5 x7 : FVec Ideal Cert.KernelIdeal.S256x40 .f32) (x6 : FVec Ideal Cert.KernelIdeal.S40 .f32)

/-- The reference's hidden features are the specification's. -/
theorem hidden_eq : val_main_v29 (F := Ideal) x0 x1 x2 x3 x4 = Cert.Spec.hidden x0 x1 x2 x3 x4 := by
  rw [layer1_eq x0 x1 x2 x3 x4 Cert.KernelIdeal.Facts₀.shapeCasts_S100000_S100000x1 Cert.KernelIdeal.Facts₀.shapeCasts_S256_S1x256,
    Cert.StageBridge.cnt_col, Cert.StageBridge.agg1]
  rfl

/-- The reference's result is the specification's. -/
theorem result_eq : val_main_v54 (F := Ideal) x0 x1 x2 x3 x4 x5 x6 x7 = Cert.Spec.result x0 x1 x2 x3 x4 x5 x6 x7 := by
  rw [layer2_eq x0 x1 x2 x3 x4 x5 x6 x7 Cert.KernelIdeal.Facts₀.shapeCasts_S100000_S100000x1 Cert.KernelIdeal.Facts₀.shapeCasts_S40_S1x40,
    cnt_again, Cert.StageBridge.cnt_col, Cert.StageBridge.agg2, hidden_eq]
  rfl

end Cert.RefValue

end
-- ==== Proof.lean ====
/-
  Two layers of mean-aggregating graph convolution: a Pallas kernel for the dense part of each layer against a plain
  jnp reference, equal over the extended reals.

  Each layer takes the node features `x`, gathers the source node's row for every edge, adds the rows into the
  destination nodes (the neighbour sums `agg`), counts each node's incoming edges (`cnt`), and computes, for node `r`
  and output feature `j`,

      Σ_k (agg[r,k] / max(cnt[r], 1)) · Wl[k,j]  +  Σ_k x[r,k] · Wr[k,j]  +  b[j],

  rectified after the first layer. The kernel leaves the gather and the scatter-add to host operations and runs the
  quotient, the two matrix products and the bias in a pallas_call tiled over 4000-row blocks; the reference does all of
  it with jnp. The two programs differ in three ways, none of which changes the value on the extended reals:
  * the kernel's gather is jnp.take, which replaces the rows of edges whose source index is out of range by a
    not-a-number word, where the reference's indexing clamps; under the precondition every source index lies in
    `[−N, N)` (after the wrap of a negative index: in `[0, N)`), so the mask is all ones and both are the same gather;
  * the kernel adds the bias last, the reference between the two products: addition on the extended reals is
    commutative and associative, at the infinities too;
  * the kernel rounds the matrix operands to bf16 and computes by blocks of rows: a change of float format is the
    identity on the extended reals, a matrix product into a zero accumulator is the plain sum over the contraction
    index on both sides, and a row of a layer depends only on the same row of the row-tiled inputs, so the 25 blocks
    written back tile one whole-array function.
  The three frames are the generated ones (the reference's is its generated run with the result dropped); no rewrite
  was applied by the idealization, so there is nothing to preserve.
-/
import proofs.«408753_j14044543058087_1_alg».proof.Defs
import proofs.«408753_j14044543058087_1_alg».proof.Proof.Gen.Kernel
import proofs.«408753_j14044543058087_1_alg».proof.Proof.Gen.Kernel.Skeleton
import proofs.«408753_j14044543058087_1_alg».proof.Proof.Gen.Kernel.Launch
import proofs.«408753_j14044543058087_1_alg».proof.Proof.Gen.Kernel.Points
import proofs.«408753_j14044543058087_1_alg».proof.Proof.Gen.Kernel.Frame
import proofs.«408753_j14044543058087_1_alg».proof.Proof.Gen.KernelIdeal
import proofs.«408753_j14044543058087_1_alg».proof.Proof.Gen.KernelIdeal.Skeleton
import proofs.«408753_j14044543058087_1_alg».proof.Proof.Gen.KernelIdeal.Launch
import proofs.«408753_j14044543058087_1_alg».proof.Proof.Gen.KernelIdeal.Points
import proofs.«408753_j14044543058087_1_alg».proof.Proof.Gen.KernelIdeal.Frame
import proofs.«408753_j14044543058087_1_alg».proof.Proof.Gen.ReferenceIdeal
import proofs.«408753_j14044543058087_1_alg».proof.Proof.Gen.Pre_finite_inputs
import proofs.«408753_j14044543058087_1_alg».proof.Proof.Gen.ReferenceIdeal.Run
import proofs.«408753_j14044543058087_1_alg».proof.Proof.Gen.ReferenceIdeal.Read
import proofs.«408753_j14044543058087_1_alg».proof.Proof.KernelValue
import proofs.«408753_j14044543058087_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, with every source index in range, both programs end at the
    specification's result of the arguments. -/
theorem algebraic : Cert.algebraic_KernelIdeal_ReferenceIdeal := by
  intro m ρ m' ρ' hpre hagree
  have hok : ∀ c : Dev Cert.KernelIdeal.nD,
      Cert.KernelIdeal.Host.SrcOk (m ((c.tc : Thread Cert.KernelIdeal.nD Cert.KernelIdeal.τ).loc Cert.KernelIdeal.main_arg1)) :=
    fun c => Cert.KernelIdeal.Host.srcOk_of_pre _ _ _ _ _ _ _ _ (hpre c)
  refine ⟨fun c => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelValue.run m ρ hok, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v54_eq, h0, h1, h2, h3, h4, h5, h6, h7]
  exact Cert.RefValue.result_eq _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
